-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part8 {F : FTy → Type} [FloatOps F] (main_arg28 : FVec F S2048 .f32) (main_v133 : IVec S_ 1) (main_v136 : IVec S2048x2048 1) : IVec S_ 1 :=
  let main_c_53 : IVec S_ 1 := constantI S_ 1 1#1
  let main_v137 : IVec S_ 1 := (fun x v => Host.reduce IntOp.andi x v reducesTo_S2048x2048_S_d0_1 h_S_) main_v136 main_c_53
  let main_v138 : IVec S_ 1 := andi main_v133 main_v137
  let main_v139 : FVec F S2048 .f32 := Host.absf main_arg28
  let main_cst_54 : FVec F S_ .f32 := constant S_ .f32 0x7F800000#32
  let main_v140 : FVec F S2048 .f32 := broadcastInDim S2048 ![] bcast_S_S2048 main_cst_54
  let main_v141 : IVec S2048 1 := cmpf .olt main_v139 main_v140
  let main_c_55 : IVec S_ 1 := constantI S_ 1 1#1
  let main_v142 : IVec S_ 1 := (fun x v => Host.reduce IntOp.andi x v reducesTo_S2048_S_d0 h_S_) main_v141 main_c_55
  let main_v143 : IVec S_ 1 := andi main_v138 main_v142
  main_v143

def fn_part7 {F : FTy → Type} [FloatOps F] (main_arg25 : FVec F S2048x2048 .f32) (main_arg26 : FVec F S2048 .f32) (main_arg27 : FVec F S2048x2048 .f32) (main_arg28 : FVec F S2048 .f32) (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  let main_v124 : FVec F S2048x2048 .f32 := Host.absf main_arg25
  let main_cst_48 : FVec F S_ .f32 := constant S_ .f32 0x7F800000#32
  let main_v125 : FVec F S2048x2048 .f32 := broadcastInDim S2048x2048 ![] bcast_S_S2048x2048 main_cst_48
  let main_v126 : IVec S2048x2048 1 := cmpf .olt main_v124 main_v125
  let main_c_49 : IVec S_ 1 := constantI S_ 1 1#1
  let main_v127 : IVec S_ 1 := (fun x v => Host.reduce IntOp.andi x v reducesTo_S2048x2048_S_d0_1 h_S_) main_v126 main_c_49
  let main_v128 : IVec S_ 1 := andi main_v123 main_v127
  let main_v129 : FVec F S2048 .f32 := Host.absf main_arg26
  let main_cst_50 : FVec F S_ .f32 := constant S_ .f32 0x7F800000#32
  let main_v130 : FVec F S2048 .f32 := broadcastInDim S2048 ![] bcast_S_S2048 main_cst_50
  let main_v131 : IVec S2048 1 := cmpf .olt main_v129 main_v130
  let main_c_51 : IVec S_ 1 := constantI S_ 1 1#1
  let main_v132 : IVec S_ 1 := (fun x v => Host.reduce IntOp.andi x v reducesTo_S2048_S_d0 h_S_) main_v131 main_c_51
  let main_v133 : IVec S_ 1 := andi main_v128 main_v132
  let main_v134 : FVec F S2048x2048 .f32 := Host.absf main_arg27
  let main_cst_52 : FVec F S_ .f32 := constant S_ .f32 0x7F800000#32
  let main_v135 : FVec F S2048x2048 .f32 := broadcastInDim S2048x2048 ![] bcast_S_S2048x2048 main_cst_52
  let main_v136 : IVec S2048x2048 1 := cmpf .olt main_v134 main_v135
  fn_part8 (F := F) main_arg28 main_v133 main_v136

def fn_part6 {F : FTy → Type} [FloatOps F] (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg21
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048x2048 .f32 := Host.absf main_arg23
  let main_cst_44 : FVec F S_ .f32 := constant S_ .f32 0x7F800000#32
  let main_v115 : FVec F S2048x2048 .f32 := broadcastInDim S2048x2048 ![] bcast_S_S2048x2048 main_cst_44
  let main_v116 : IVec S2048x2048 1 := cmpf .olt main_v114 main_v115
  let main_c_45 : IVec S_ 1 := constantI S_ 1 1#1
  let main_v117 : IVec S_ 1 := (fun x v => Host.reduce IntOp.andi x v reducesTo_S2048x2048_S_d0_1 h_S_) main_v116 main_c_45
  let main_v118 : IVec S_ 1 := andi main_v113 main_v117
  let main_v119 : FVec F S2048 .f32 := Host.absf main_arg24
  fn_part7 (F := F) main_arg25 main_arg26 main_arg27 main_arg28 main_v118 main_v119

def fn_part5 {F : FTy → Type} [FloatOps F] (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S2048x128 : Shape := ⟨2, ![2048, 128]⟩
abbrev S256x128 : Shape := ⟨2, ![256, 128]⟩

abbrev nBuf : Space → Nat
  | .hbm => 51
  | .vmem => 37
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .f32⟩
  | .hbm, ⟨26, _⟩ => ⟨S2048, .f32⟩
  | .hbm, ⟨27, _⟩ => ⟨S2048x2048, .f32⟩
  | .hbm, ⟨28, _⟩ => ⟨S2048, .f32⟩
  | .hbm, ⟨29, _⟩ => ⟨S4096x2048, .bf16⟩
  | .hbm, ⟨30, _⟩ => ⟨S4096x2048, .bf16⟩
  | .hbm, ⟨31, _⟩ => ⟨S4096x2048, .bf16⟩
  | .hbm, ⟨32, _⟩ => ⟨S2048x2048, .bf16⟩
  | .hbm, ⟨33, _⟩ => ⟨S2048x2048, .bf16⟩
  | .hbm, ⟨34, _⟩ => ⟨S2048x2048, .bf16⟩
  | .hbm, ⟨35, _⟩ => ⟨S2048x2048, .bf16⟩
  | .hbm, ⟨36, _⟩ => ⟨S2048x2048, .bf16⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S2048x2048, .bf16⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x2048, .bf16⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  ![0, v5.toNat]
def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_38 : BitVec 32 := 0#32
  let v60 : BitVec 1 := Scalar.cmpi .ne v59 c0_i32_38
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x128_S2048x128_S256x2048_1_1_0_0_n_n_wf : DotDims.WF S256x128 S2048x128 S256x2048 [1] [1] [0] [0] [] []
  dot_S256x2048_S2048x2048_S256x2048_1_1_0_0_n_n_wf : DotDims.WF S256x2048 S2048x2048 S256x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S256x128.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x2048.size a
  hwx0_3 : ∀ i : grid0.Coords, EltTy.bits .bf16 = 32 ∨ (Rect.block (s := S2048x2048) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x2048.size a
  hwx0_4 : ∀ i : grid0.Coords, EltTy.bits .bf16 = 32 ∨ (Rect.block (s := S2048x2048) S2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x2048.size a
  hwx0_5 : ∀ i : grid0.Coords, EltTy.bits .bf16 = 32 ∨ (Rect.block (s := S2048x2048) S2048x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x2048.size a
  hwx0_6 : ∀ i : grid0.Coords, EltTy.bits .bf16 = 32 ∨ (Rect.block (s := S2048x2048) S2048x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x2048.size a
  hwx0_7 : ∀ i : grid0.Coords, EltTy.bits .bf16 = 32 ∨ (Rect.block (s := S2048x2048) S2048x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x2048.size a
  hwx0_8 : ∀ i : grid0.Coords, EltTy.bits .bf16 = 32 ∨ (Rect.block (s := S2048x2048) S2048x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S2048x2048.size a
  hwx0_9 : ∀ i : grid0.Coords, EltTy.bits .bf16 = 32 ∨ (Rect.block (s := S2048x2048) S2048x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S2048x2048.size a
  hwx0_10 : ∀ i : grid0.Coords, EltTy.bits .bf16 = 32 ∨ (Rect.block (s := S2048x2048) S2048x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048.size a ≤ S1x2048.size a
  hwx0_13 : ∀ i : grid0.Coords, EltTy.bits .f32 = 32 ∨ (Rect.block (s := S1x2048) S1x2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x2048.size a
  hwx0_14 : ∀ i : grid0.Coords, EltTy.bits .f32 = 32 ∨ (Rect.block (s := S1x2048) S1x2048.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x2048.size a ≤ S1x2048.size a
  hwx0_15 : ∀ i : grid0.Coords, EltTy.bits .f32 = 32 ∨ (Rect.block (s := S1x2048) S1x2048.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x2048.size a
  hwx0_16 : ∀ i : grid0.Coords, EltTy.bits .f32 = 32 ∨ (Rect.block (s := S1x2048) S1x2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x2048.size a ≤ S1x2048.size a
  hwx0_17 : ∀ i : grid0.Coords, EltTy.bits .f32 = 32 ∨ (Rect.block (s := S1x2048) S1x2048.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2048.size a ≤ S1x2048.size a
  hwx0_18 : ∀ i : grid0.Coords, EltTy.bits .f32 = 32 ∨ (Rect.block (s := S1x2048) S1x2048.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x2048.size a ≤ S1x2048.size a
  hwx0_19 : ∀ i : grid0.Coords, EltTy.bits .f32 = 32 ∨ (Rect.block (s := S1x2048) S1x2048.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x2048.size a ≤ S1x2048.size a
  hwx0_20 : ∀ i : grid0.Coords, EltTy.bits .f32 = 32 ∨ (Rect.block (s := S1x2048) S1x2048.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x2048.size a ≤ S4096x2048.size a
  hwx0_21 : ∀ i : grid0.Coords, EltTy.bits .f32 = 32 ∨ (Rect.block (s := S4096x2048) S256x2048.size (cc0_transform_21 i) (hinb0_21 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2048x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2048x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S2048x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x2048.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x2048.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x2048.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x2048.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S1x2048.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v21) S256x2048.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev idle0 : Fin 22 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k0_cond2 i == 1#1) | ⟨_ + 22, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S2048x2048, .f32⟩
  | 4 => ⟨S2048, .f32⟩
  | 5 => ⟨S2048x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x2048, .f32⟩
  | 12 => ⟨S2048, .f32⟩
  | 13 => ⟨S2048x2048, .f32⟩
  | 14 => ⟨S2048, .f32⟩
  | 15 => ⟨S2048x2048, .f32⟩
  | 16 => ⟨S2048, .f32⟩
  | 17 => ⟨S2048x2048, .f32⟩
  | 18 => ⟨S2048, .f32⟩
  | 19 => ⟨S2048x2048, .f32⟩
  | 20 => ⟨S2048, .f32⟩
  | 21 => ⟨S2048x2048, .f32⟩
  | 22 => ⟨S2048, .f32⟩
  | 23 => ⟨S2048x2048, .f32⟩
  | 24 => ⟨S2048, .f32⟩
  | 25 => ⟨S2048x2048, .f32⟩
  | 26 => ⟨S2048, .f32⟩
  | 27 => ⟨S2048x2048, .f32⟩
  | 28 => ⟨S2048, .f32⟩
  | 29 => ⟨S2048x2048, .f32⟩
  | 30 => ⟨S4096x2048, .f32⟩
  | 31 => ⟨S1x2048, .f32⟩
  | 32 => ⟨S4096x2048, .f32⟩
  | 33 => ⟨S4096x2048, .f32⟩
  | 34 => ⟨S2048x2048, .f32⟩
  | 35 => ⟨S4096x2048, .f32⟩
  | 36 => ⟨S1x2048, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S_, .f32⟩
  | 43 => ⟨S4096x2048, .f32⟩
  | 44 => ⟨S4096x2048, .f32⟩
  | 45 => ⟨S_, .f32⟩
  | 46 => ⟨S4096x2048, .f32⟩
  | 47 => ⟨S4096x2048, .f32⟩
  | 48 => ⟨S2048x2048, .f32⟩
  | 49 => ⟨S4096x2048, .f32⟩
  | 50 => ⟨S1x2048, .f32⟩
  | 51 => ⟨S4096x2048, .f32⟩
  | 52 => ⟨S4096x2048, .f32⟩
  | 53 => ⟨S2048x2048, .f32⟩
  | 54 => ⟨S4096x2048, .f32⟩
  | 55 => ⟨S1x2048, .f32⟩
  | 56 => ⟨S4096x2048, .f32⟩
  | 57 => ⟨S4096x2048, .f32⟩
  | 58 => ⟨S4096x2048, .f32⟩
  | 59 => ⟨S2048x2048, .f32⟩
  | 60 => ⟨S4096x2048, .f32⟩
  | 61 => ⟨S1x2048, .f32⟩
  | 62 => ⟨S4096x2048, .f32⟩
  | 63 => ⟨S4096x2048, .f32⟩
  | 64 => ⟨S4096x2048, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S_, .f32⟩
  | 71 => ⟨S4096x2048, .f32⟩
  | 72 => ⟨S4096x2048, .f32⟩
  | 73 => ⟨S2048x2048, .f32⟩
  | 74 => ⟨S4096x2048, .f32⟩
  | 75 => ⟨S1x2048, .f32⟩
  | 76 => ⟨S4096x2048, .f32⟩
  | 77 => ⟨S4096x2048, .f32⟩
  | 78 => ⟨S2048x2048, .f32⟩
  | 79 => ⟨S4096x2048, .f32⟩
  | 80 => ⟨S1x2048, .f32⟩
  | 81 => ⟨S4096x2048, .f32⟩
  | 82 => ⟨S4096x2048, .f32⟩
  | 83 => ⟨S4096x2048, .f32⟩
  | 84 => ⟨S2048x2048, .f32⟩
  | 85 => ⟨S4096x2048, .f32⟩
  | 86 => ⟨S1x2048, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S_, .f32⟩
  | 93 => ⟨S4096x2048, .f32⟩
  | 94 => ⟨S4096x2048, .f32⟩
  | 95 => ⟨S_, .f32⟩
  | 96 => ⟨S4096x2048, .f32⟩
  | 97 => ⟨S4096x2048, .f32⟩
  | 98 => ⟨S4096x2048, .f32⟩
  | 99 => ⟨S2048x2048, .f32⟩
  | 100 => ⟨S4096x2048, .f32⟩
  | 101 => ⟨S1x2048, .f32⟩
  | 102 => ⟨S4096x2048, .f32⟩
  | 103 => ⟨S4096x2048, .f32⟩
  | 104 => ⟨S4096x2048, .f32⟩
  | 105 => ⟨S4096x2048, .f32⟩
  | 106 => ⟨S2048x2048, .f32⟩
  | 107 => ⟨S4096x2048, .f32⟩
  | 108 => ⟨S1x2048, .f32⟩
  | 109 => ⟨S4096x2048, .f32⟩
  | 110 => ⟨S4096x2048, .f32⟩
  | 111 => ⟨S2048x2048, .f32⟩
  | 112 => ⟨S4096x2048, .f32⟩
  | 113 => ⟨S1x2048, .f32⟩
  | 114 => ⟨S4096x2048, .f32⟩
  | 115 => ⟨S4096x2048, .f32⟩
  | 116 => ⟨S4096x2048, .f32⟩
  | 117 => ⟨S2048x2048, .f32⟩
  | 118 => ⟨S4096x2048, .f32⟩
  | 119 => ⟨S1x2048, .f32⟩
  | 120 => ⟨S4096x2048, .f32⟩
  | 121 => ⟨S4096x2048, .f32⟩
  | 122 => ⟨S4096x2048, .f32⟩
  | 123 => ⟨S4096x2048, .f32⟩
  | 124 => ⟨S4096x2048, .f32⟩
  | 125 => ⟨S_, .f32⟩
  | 126 => ⟨S4096x2048, .f32⟩
  | 127 => ⟨S4096x2048, .f32⟩
  | _ => ⟨S4096x2048, .f32⟩

abbrev hbmTy0_1 (i : Nat) : BufTy := match i % 128 with
  | 0 => ⟨S_, .f32⟩
  | 1 => ⟨S4096x2048, .f32⟩
  | 2 => ⟨S4096x2048, .f32⟩
  | 3 => ⟨S2048x2048, .f32⟩
  | 4 => ⟨S4096x2048, .f32⟩
  | 5 => ⟨S1x2048, .f32⟩
  | 6 => ⟨S4096x2048, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_1 : Ref sig .tc := ⟨.hbm, 67, rfl⟩
abbrev main_v36 : Ref sig .tc := ⟨.hbm, 68, rfl⟩
abbrev main_v37 : Ref sig .tc := ⟨.hbm, 69, rfl⟩
abbrev main_cst_2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_3 : Ref sig .tc := ⟨.hbm, 92, rfl⟩
abbrev main_v59 : Ref sig .tc := ⟨.hbm, 93, rfl⟩
abbrev main_v60 : Ref sig .tc := ⟨.hbm, 94, rfl⟩
abbrev main_cst_4 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_5 : Ref sig .tc := ⟨.hbm, 125, rfl⟩
abbrev main_v90 : Ref sig .tc := ⟨.hbm, 126, rfl⟩
abbrev main_v91 : Ref sig .tc := ⟨.hbm, 127, rfl⟩
abbrev main_cst_6 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_7 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KernelSlice.lean ====
/-
  A column slice of a batch tile.

  At grid point `(r, k)` the body loads, from each [256, 2048] tile of activations, the [256, 128] slice whose
  columns are the input features `128·k … 128·k + 127`: entry `(p, a)` of the slice is entry `(p, 128·k + a)` of the
  tile.
-/
import proofs.«102152_j54262616818001_1_alg».proof.Proof.Gen.KernelIdeal
import Idealize.ShloMosaic.Lib.Pipeline.Value
import Idealize.ShloMosaic.Lib.ValueIdx

noncomputable section

namespace Cert.KernelIdeal.Slice

open Cert.KernelIdeal Cert.KernelIdeal.Gen Idealize.ShloMosaic Idealize.ShloMosaic.ValueIdx

variable {F : FTy → Type} [FloatOps F]

/-- The slice of a tile that the body loads at grid point `i`, as the load presents it. -/
def colBlk (i : grid0.Coords) (x : Vec F S256x2048 .bf16) : Vec F S256x128 .bf16 :=
  View.ld x (Rect.unit (s := S256x2048) (k0_off1 i) S256x128.size (k0_off1_inb i))

/-- The second grid coordinate counts the sixteen feature blocks. -/
theorem coord1_lt (i : grid0.Coords) : (i 1).val < 16 := (i 1).isLt

/-- Entry `(p, a)` of the slice is entry `(p, 128·k + a)` of the tile, `k` the point's second coordinate. -/
theorem colBlk_apply (i : grid0.Coords) (x : Vec F S256x2048 .bf16) (p : Fin 256) (a : Fin 128) :
    colBlk i x (ix2 p a)
      = x (ix2 p ⟨128 * (i 1).val + a.val, by have := coord1_lt i; have := a.isLt; omega⟩) := by
  unfold colBlk
  show x ((Rect.unit (s := S256x2048) (k0_off1 i) S256x128.size (k0_off1_inb i)).emb (ix2 p a)) = _
  refine congrArg x (funext fun d => Fin.ext ?_)
  rw [Rect.emb_apply]
  match d with
  | ⟨0, _⟩ =>
    show (k0_off1 i) 0 + 1 * (p : Nat) = (p : Nat)
    rw [k0_off1_eq i]
    show 0 + 1 * (p : Nat) = (p : Nat)
    omega
  | ⟨1, _⟩ =>
    show (k0_off1 i) 1 + 1 * (a : Nat) = 128 * (i 1).val + (a : Nat)
    rw [k0_off1_eq i]
    show 128 * (i 1).val + 1 * (a : Nat) = 128 * (i 1).val + (a : Nat)
    omega

end Cert.KernelIdeal.Slice

end
-- ==== Proof.KernelPieces.lean ====
/-
  What the kernel body leaves in its buffers, as pure functions of what it loaded.

  The body runs in one of three ways, by the position `k` of the grid point in its row tile. At `k = 0` it first
  stores zero into each of the three accumulators and then adds this point's partial products, so each accumulator
  ends at its update over zero. At `0 < k < 15` it adds this point's partial products to what the point before
  left. At `k = 15` it does the same and then, reading each accumulator after that update, stores the output
  tile. Every accumulator is stored whole, so what it holds afterwards is the stored value itself; a load of an
  accumulator that follows a store in the same run reads the stored value; and a load of an input block reads the
  block, a slice load its column slice. These statements hold at every instance of the float operations.
-/
import proofs.«102152_j54262616818001_1_alg».proof.Proof.KernelIdealFrame
import proofs.«102152_j54262616818001_1_alg».proof.Proof.KernelSlice

set_option maxRecDepth 16384

noncomputable section

namespace Cert.KernelIdeal.Pieces

open Cert.KernelIdeal Cert.KernelIdeal.Gen Cert.KernelIdeal.GenP Cert.KernelIdeal.Slice
open Idealize.ShloMosaic Idealize.ShloMosaic.TcCoe Idealize.ShloMosaic.Tactic Idealize.SL.Sem

variable {F : FTy → Type} [FloatOps F]

/-- The zero offsets of a rank-two rectangle are the constant function zero. -/
theorem off_zero : (![0, 0] : Fin 2 → Nat) = fun _ => 0 := by
  funext a; fin_cases a <;> rfl

/-- Scratch 0 after the body at the first point of a row tile: the accumulator is reset to zero, then updated. -/
theorem sout0_A_0_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 = k0_pay13 (colBlk i x0) (colBlk i x1) k0_pay7 x6 x7 := by
  -- The pieces cover the buffer, so reading them back over anything gives their canonical contents.
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20)]
  unfold kernelRun0_A
  dsimp only
  sl_unfold_words
  -- The update is stored last and whole, so it is what remains; the accumulator it read is the reset value,
  -- stored whole just before.
  rw [View.canon_cons_unit_zero (S := S256x2048) off_zero, View.readCov_unit_zero (S := S256x2048) _ off_zero]
  -- Each whole load reads its block; each slice load is the column slice by definition.
  simp only [View.readAt_eq_ld, harg2.read_unread, harg3.read_unread, harg8.read_unread, harg9.read_unread,
    View.ld_unit_zero (S := S2048x128) off_zero, View.ld_unit_zero (S := S256x2048) off_zero]
  rfl

/-- Scratch 1 after the body at the first point of a row tile: the accumulator is reset to zero, then updated. -/
theorem sout0_A_1_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 = k0_pay1 (k0_pay11 (colBlk i x1)) (k0_pay12 (colBlk i x2)) k0_pay8 (k0_pay14 (colBlk i x0) x3) (k0_pay15 x5) (constant S256x2048 .f32 0x00000000#32) x4 := by
  -- The pieces cover the buffer, so reading them back over anything gives their canonical contents.
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20)]
  unfold kernelRun0_A
  dsimp only
  sl_unfold_words
  -- The update is stored last and whole, so it is what remains; the accumulator it read is the reset value,
  -- stored whole just before.
  rw [View.canon_cons_unit_zero (S := S256x2048) off_zero, View.readCov_unit_zero (S := S256x2048) _ off_zero]
  -- Each whole load reads its block; each slice load is the column slice by definition.
  simp only [View.readAt_eq_ld, harg2.read_unread, harg3.read_unread, harg4.read_unread, harg5.read_unread, harg6.read_unread, harg7.read_unread,
    View.ld_unit_zero (S := S2048x128) off_zero, View.ld_unit_zero (S := S256x2048) off_zero]
  rfl

/-- Scratch 2 after the body at the first point of a row tile: the accumulator is reset to zero, then updated. -/
theorem sout0_A_2_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 = k0_pay2 (k0_pay10 (colBlk i x0)) (k0_pay11 (colBlk i x1)) (k0_pay12 (colBlk i x2)) k0_pay9 x8 x10 x9 := by
  -- The pieces cover the buffer, so reading them back over anything gives their canonical contents.
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20)]
  unfold kernelRun0_A
  dsimp only
  sl_unfold_words
  -- The update is stored last and whole, so it is what remains; the accumulator it read is the reset value,
  -- stored whole just before.
  rw [View.canon_cons_unit_zero (S := S256x2048) off_zero, View.readCov_unit_zero (S := S256x2048) _ off_zero]
  -- Each whole load reads its block; each slice load is the column slice by definition.
  simp only [View.readAt_eq_ld, harg2.read_unread, harg3.read_unread, harg4.read_unread, harg10.read_unread, harg11.read_unread, harg12.read_unread,
    View.ld_unit_zero (S := S2048x128) off_zero, View.ld_unit_zero (S := S256x2048) off_zero]
  rfl

/-- Scratch 0 after the body at a middle point of a row tile: the accumulator is updated over what the point before left. -/
theorem sout0_B_0_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay13 (colBlk i x0) (colBlk i x1) xs0 x6 x7 := by
  -- The pieces cover the buffer, so reading them back over anything gives their canonical contents.
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_B
  dsimp only
  sl_unfold_words
  -- The one store is whole, so its value is what remains.
  rw [View.canon_unit_zero off_zero]
  -- Each whole load reads its block; each slice load is the column slice by definition.
  simp only [View.readAt_eq_ld, harg2.read_unread, harg3.read_unread, harg8.read_unread, harg9.read_unread, harg24.read_unread,
    View.ld_unit_zero (S := S2048x128) off_zero, View.ld_unit_zero (S := S256x2048) off_zero]
  rfl

/-- Scratch 1 after the body at a middle point of a row tile: the accumulator is updated over what the point before left. -/
theorem sout0_B_1_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay1 (k0_pay11 (colBlk i x1)) (k0_pay12 (colBlk i x2)) xs1 (k0_pay14 (colBlk i x0) x3) (k0_pay15 x5) (constant S256x2048 .f32 0x00000000#32) x4 := by
  -- The pieces cover the buffer, so reading them back over anything gives their canonical contents.
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_B
  dsimp only
  sl_unfold_words
  -- The one store is whole, so its value is what remains.
  rw [View.canon_unit_zero off_zero]
  -- Each whole load reads its block; each slice load is the column slice by definition.
  simp only [View.readAt_eq_ld, harg2.read_unread, harg3.read_unread, harg4.read_unread, harg5.read_unread, harg6.read_unread, harg7.read_unread, harg25.read_unread,
    View.ld_unit_zero (S := S2048x128) off_zero, View.ld_unit_zero (S := S256x2048) off_zero]
  rfl

/-- Scratch 2 after the body at a middle point of a row tile: the accumulator is updated over what the point before left. -/
theorem sout0_B_2_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : ¬cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay2 (k0_pay10 (colBlk i x0)) (k0_pay11 (colBlk i x1)) (k0_pay12 (colBlk i x2)) xs2 x8 x10 x9 := by
  -- The pieces cover the buffer, so reading them back over anything gives their canonical contents.
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_B
  dsimp only
  sl_unfold_words
  -- The one store is whole, so its value is what remains.
  rw [View.canon_unit_zero off_zero]
  -- Each whole load reads its block; each slice load is the column slice by definition.
  simp only [View.readAt_eq_ld, harg2.read_unread, harg3.read_unread, harg4.read_unread, harg10.read_unread, harg11.read_unread, harg12.read_unread, harg26.read_unread,
    View.ld_unit_zero (S := S2048x128) off_zero, View.ld_unit_zero (S := S256x2048) off_zero]
  rfl

/-- Scratch 0 after the body at the last point of a row tile: the accumulator is updated over what the point before left. -/
theorem sout0_C_0_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay13 (colBlk i x0) (colBlk i x1) xs0 x6 x7 := by
  -- The pieces cover the buffer, so reading them back over anything gives their canonical contents.
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_C
  dsimp only
  sl_unfold_words
  -- The one store is whole, so its value is what remains.
  rw [View.canon_unit_zero off_zero]
  -- Each whole load reads its block; each slice load is the column slice by definition.
  simp only [View.readAt_eq_ld, harg2.read_unread, harg3.read_unread, harg8.read_unread, harg9.read_unread, harg24.read_unread,
    View.ld_unit_zero (S := S2048x128) off_zero, View.ld_unit_zero (S := S256x2048) off_zero]
  rfl

/-- Scratch 1 after the body at the last point of a row tile: the accumulator is updated over what the point before left. -/
theorem sout0_C_1_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay1 (k0_pay11 (colBlk i x1)) (k0_pay12 (colBlk i x2)) xs1 (k0_pay14 (colBlk i x0) x3) (k0_pay15 x5) (constant S256x2048 .f32 0x00000000#32) x4 := by
  -- The pieces cover the buffer, so reading them back over anything gives their canonical contents.
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_C
  dsimp only
  sl_unfold_words
  -- The one store is whole, so its value is what remains.
  rw [View.canon_unit_zero off_zero]
  -- Each whole load reads its block; each slice load is the column slice by definition.
  simp only [View.readAt_eq_ld, harg2.read_unread, harg3.read_unread, harg4.read_unread, harg5.read_unread, harg6.read_unread, harg7.read_unread, harg25.read_unread,
    View.ld_unit_zero (S := S2048x128) off_zero, View.ld_unit_zero (S := S256x2048) off_zero]
  rfl

/-- Scratch 2 after the body at the last point of a row tile: the accumulator is updated over what the point before left. -/
theorem sout0_C_2_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2 = k0_pay2 (k0_pay10 (colBlk i x0)) (k0_pay11 (colBlk i x1)) (k0_pay12 (colBlk i x2)) xs2 x8 x10 x9 := by
  -- The pieces cover the buffer, so reading them back over anything gives their canonical contents.
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_C
  dsimp only
  sl_unfold_words
  -- The one store is whole, so its value is what remains.
  rw [View.canon_unit_zero off_zero]
  -- Each whole load reads its block; each slice load is the column slice by definition.
  simp only [View.readAt_eq_ld, harg2.read_unread, harg3.read_unread, harg4.read_unread, harg10.read_unread, harg11.read_unread, harg12.read_unread, harg26.read_unread,
    View.ld_unit_zero (S := S2048x128) off_zero, View.ld_unit_zero (S := S256x2048) off_zero]
  rfl

/-- The output tile after the body at the last point of a row tile: the epilogue reads each accumulator AFTER this
    point's update and stores the gated combination. -/
theorem out0_C_21_eq (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S256x2048 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x2048 .f32) (harg26 : arg26.IsWhole) (hc0 : ¬cond0_0 i) (hc1 : cond0_1 i) (x0 : Vec F S256x2048 .bf16) (x1 : Vec F S256x2048 .bf16) (x2 : Vec F S256x2048 .bf16) (x3 : Vec F S2048x128 .bf16) (x4 : Vec F S2048x128 .bf16) (x5 : Vec F S2048x128 .bf16) (x6 : Vec F S2048x128 .bf16) (x7 : Vec F S2048x128 .bf16) (x8 : Vec F S2048x128 .bf16) (x9 : Vec F S2048x128 .bf16) (x10 : Vec F S2048x128 .bf16) (x11 : Vec F S2048x2048 .bf16) (x12 : Vec F S1x2048 .f32) (x13 : Vec F S1x2048 .f32) (x14 : Vec F S1x2048 .f32) (x15 : Vec F S1x2048 .f32) (x16 : Vec F S1x2048 .f32) (x17 : Vec F S1x2048 .f32) (x18 : Vec F S1x2048 .f32) (x19 : Vec F S1x2048 .f32) (x20 : Vec F S1x2048 .f32) (xs0 : Vec F S256x2048 .f32) (xs1 : Vec F S256x2048 .f32) (xs2 : Vec F S256x2048 .f32) :
    out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2
      = k0_pay3 (k0_pay4 (k0_pay13 (colBlk i x0) (colBlk i x1) xs0 x6 x7) x15 x16)
          (k0_pay5 (k0_pay1 (k0_pay11 (colBlk i x1)) (k0_pay12 (colBlk i x2)) xs1 (k0_pay14 (colBlk i x0) x3) (k0_pay15 x5) (constant S256x2048 .f32 0x00000000#32) x4) x12 x14 x13)
          (k0_pay6 (k0_pay2 (k0_pay10 (colBlk i x0)) (k0_pay11 (colBlk i x1)) (k0_pay12 (colBlk i x2)) xs2 x8 x10 x9) x17 x19 x18) x2 x11 x20 := by
  -- The one store of the output is whole, so its value is what remains.
  unfold out0_C_21
  rw [View.read_writes_eq_canon _ _ _ (cover0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1 xs2)]
  unfold kernelRun0_C
  dsimp only
  sl_unfold_words
  rw [View.canon_unit_zero off_zero]
  -- Each accumulator is read after its whole store in the same run, so the read is the stored update; each whole
  -- load reads its block; each slice load is the column slice by definition.
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    harg14.read_unread, harg15.read_unread, harg16.read_unread, harg17.read_unread, harg18.read_unread, harg19.read_unread, harg20.read_unread, harg21.read_unread, harg22.read_unread, harg24.read_unread, harg25.read_unread, harg26.read_unread,
    View.readCov_unit_zero (S := S256x2048) _ off_zero,
    View.ld_unit_zero (S := S2048x128) off_zero, View.ld_unit_zero (S := S256x2048) off_zero,
    View.ld_unit_zero (S := S2048x2048) off_zero, View.ld_unit_zero (S := S1x2048) off_zero]
  rfl

end Cert.KernelIdeal.Pieces

end
-- ==== Proof.LibDotRows.lean ====
/-
  A matrix product of two row-major operands whose SECOND axes are contracted, at the ideal instance, read at
  an entry.

  For rank-2 operands of shapes [M, K] and [N, K] whose dimension numbers contract the second axis of each, the
  product into a zero accumulator is, at row `p` and column `j`, the plain sum over `a : Fin K` of
  `l (p, a) * r (j, a)` on the extended reals: row `p` of the left operand against row `j` of the right one.
  The dimension numbers enter only through four coordinate facts (which coordinate of each operand is the
  output's and which is the contracted one); a caller proves those four for its own record and gets the sum.
-/
import Idealize.ShloMosaic.Lib.ValueIdx
import Idealize.ShloMosaic.PureOps.Ideal.Laws

noncomputable section

namespace Cert.Lib.DotRows

open Idealize.ShloMosaic Idealize.ShloMosaic.ValueIdx

/-- The contraction sum of a product that pairs rows with rows, re-indexed from the record's one-axis contraction
    index to `Fin K`: the left operand is read along its row `p`, the right along its row `j`. -/
theorem contraction_rows {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product of rows against rows into the zero accumulator, at the ideal instance, read at
    `(p, j)`. -/
theorem matmul_zero_rows {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_rows D hr hs hl0 hl1 hr0 hr1 l r p j

end Cert.Lib.DotRows

end
-- ==== Proof.KernelDots.lean ====
/-
  The kernel's two matrix products, read at an entry on the extended reals.

  Both contract the SECOND axis of each operand: the kernel keeps every weight as stored, [out, in], and pairs a
  row of activations with a row of the weight. So the entry at row `p`, column `j` of a product into the zero
  accumulator is the sum over the contracted features `a` of `l (p, a) * r (j, a)`. The four coordinate facts of
  each dimension record (which coordinate of an operand's index is the output's row or column, and which is the
  contracted feature) are stated at the literal axes and handed to the general law for such products.
-/
import proofs.«102152_j54262616818001_1_alg».proof.Proof.Gen.KernelIdeal
import proofs.«102152_j54262616818001_1_alg».proof.Proof.LibDotRows

noncomputable section

namespace Cert.KernelIdeal.Dots

open Cert.KernelIdeal Cert.KernelIdeal.Gen Idealize.ShloMosaic Idealize.ShloMosaic.ValueIdx

/-! ## one block of 128 input features: a [256, 128] slice of a batch tile against a [2048, 128] slice of a weight -/

theorem lhs_blk_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_blk_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_blk_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_blk_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- The product into the zero accumulator, at row `p` and column `j`: row `p` of the left operand against row `j`
    of the right one, over the 128 contracted features. -/
theorem matmul_blk_apply {φ₁ φ₂ : FTy} (l : FVec Ideal S256x128 φ₁) (r : FVec Ideal S2048x128 φ₂) (p : Fin 256) (j : Fin 2048) :
    matmul dot_S256x128_S2048x128_S256x2048_1_1_0_0_n_n none l r (constant (F := Ideal) S256x2048 .f32 0x00000000#32) (ix2 p j)
      = ∑ a : Fin 128, l (ix2 p a) * r (ix2 j a) :=
  Cert.Lib.DotRows.matmul_zero_rows dot_S256x128_S2048x128_S256x2048_1_1_0_0_n_n none rfl rfl
    lhs_blk_0 lhs_blk_1 rhs_blk_0 rhs_blk_1 l r p j

/-! ## the decoder layer: a whole [256, 2048] batch tile against the whole [2048, 2048] weight -/

theorem lhs_dec_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs_dec_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_dec_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs_dec_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The product into the zero accumulator, at row `p` and column `j`: row `p` of the left operand against row `j`
    of the right one, over the 2048 contracted features. -/
theorem matmul_dec_apply {φ₁ φ₂ : FTy} (l : FVec Ideal S256x2048 φ₁) (r : FVec Ideal S2048x2048 φ₂) (p : Fin 256) (j : Fin 2048) :
    matmul dot_S256x2048_S2048x2048_S256x2048_1_1_0_0_n_n none l r (constant (F := Ideal) S256x2048 .f32 0x00000000#32) (ix2 p j)
      = ∑ a : Fin 2048, l (ix2 p a) * r (ix2 j a) :=
  Cert.Lib.DotRows.matmul_zero_rows dot_S256x2048_S2048x2048_S256x2048_1_1_0_0_n_n none rfl rfl
    lhs_dec_0 lhs_dec_1 rhs_dec_0 rhs_dec_1 l r p j

end Cert.KernelIdeal.Dots

end
-- ==== Proof.KernelPayloads.lean ====
/-
  The kernel body's arithmetic, read at an entry on the extended reals.

  The body's stores write pure functions of its loads. Read at row `p` and column `q` of the [256, 2048] tile, each
  accumulator's update is what the accumulator held plus, for every layer it accumulates, row `p` of a [256, 128]
  slice of activations against row `q` of the matching [2048, 128] slice of the layer's weight; each gate is the
  logistic function of its accumulator plus its biases, a bias of shape [1, 2048] being read at `(0, q)`; and the
  output tile is the decoder layer of the read-gated memory plus the input block times the input gate. Changes of
  float format and casts between equal shapes are the identity on the extended reals.
-/
import proofs.«102152_j54262616818001_1_alg».proof.Proof.Gen.KernelIdeal.Skeleton
import proofs.«102152_j54262616818001_1_alg».proof.Proof.KernelDots
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx

/-! ## the non-pointwise steps, each read at an entry -/

/-- A cast between equal shapes reads, at an index, the operand there. -/
theorem shapeCast_self_apply {s : Shape} {α : Type} (v : s.Idx → α) (h : s.ShapeCasts s) (j : s.Idx) :
    shapeCast s v h j = v j :=
  congrFun (shapeCast_self v h) j

/-- One block's product as the body spells it, both operands cast to their own shapes: row `p` of the activations'
    slice against row `q` of the weight's slice. -/
theorem blk_apply (l : FVec Ideal S256x128 .bf16) (r : FVec Ideal S2048x128 .bf16) (p : Fin 256) (q : Fin 2048) :
    matmul (φ₁ := .bf16) (φ₂ := .bf16) dot_S256x128_S2048x128_S256x2048_1_1_0_0_n_n none
        (shapeCast S256x128 l shapeCasts_S256x128_S256x128) (shapeCast S2048x128 r shapeCasts_S2048x128_S2048x128)
        (constant (F := Ideal) S256x2048 .f32 0x00000000#32) (ix2 p q)
      = ∑ a : Fin 128, l (ix2 p a) * r (ix2 q a) := by
  rw [shapeCast_self, shapeCast_self]
  exact Dots.matmul_blk_apply l r p q

/-- A bias of shape [1, 2048], cast to its own shape and broadcast along the 256 rows, reads its one row. -/
theorem row_apply (b : FVec Ideal S1x2048 .f32) (p : Fin 256) (q : Fin 2048) :
    broadcastTo S256x2048 (shapeCast S1x2048 b shapeCasts_S1x2048_S1x2048) broadcasts_S1x2048_S256x2048 (ix2 p q)
      = b (ix2 (0 : Fin 1) q) := by
  rw [shapeCast_self]
  exact broadcastTo_1b_ab_apply b broadcasts_S1x2048_S256x2048 p q

/-- The decoder's product as the body spells it: the left operand is the gate times the memory tile, entry by entry
    (the tile widened before that product and the product narrowed after it, both the identity here); the weight is
    cast to its own shape. -/
theorem dec_apply (g : FVec Ideal S256x2048 .f32) (m : FVec Ideal S256x2048 .bf16) (w : FVec Ideal S2048x2048 .bf16)
    (p : Fin 256) (q : Fin 2048) :
    matmul (φ₁ := .bf16) (φ₂ := .bf16) dot_S256x2048_S2048x2048_S256x2048_1_1_0_0_n_n none
        (truncf .bf16 (mulf g (extf .f32 (shapeCast S256x2048 m shapeCasts_S256x2048_S256x2048) bitsLt_bf16_f32)) bitsLt_bf16_f32)
        (shapeCast S2048x2048 w shapeCasts_S2048x2048_S2048x2048)
        (constant (F := Ideal) S256x2048 .f32 0x00000000#32) (ix2 p q)
      = ∑ j : Fin 2048, (g (ix2 p j) * m (ix2 p j)) * w (ix2 q j) := by
  rw [shapeCast_self, shapeCast_self]
  refine (Dots.matmul_dec_apply _ _ p q).trans ?_
  rfl

/-! ## the payloads -/

/-- The first accumulator's update: what it held, plus the input slice against the input weight's slice, plus
    the recurrent slice against the recurrent weight's slice. -/
theorem pay13_apply (v6 v9 : Vec Ideal S256x128 .bf16) (v14 : Vec Ideal S256x2048 .f32) (v15 v18 : Vec Ideal S2048x128 .bf16)
    (p : Fin 256) (q : Fin 2048) :
    k0_pay13 (F := Ideal) v6 v9 v14 v15 v18 (ix2 p q)
      = v14 (ix2 p q) + ((∑ a : Fin 128, v6 (ix2 p a) * v15 (ix2 q a)) + (∑ a : Fin 128, v9 (ix2 p a) * v18 (ix2 q a))) := by
  unfold k0_pay13 k0_pay10 k0_pay11
  refine (shapeCast_self_apply _ _ (ix2 p q)).trans ?_
  exact congrArg (v14 (ix2 p q) + ·) (congrArg₂ (· + ·) (blk_apply v6 v15 p q) (blk_apply v9 v18 p q))

/-- The second accumulator's update, as the body's stores compose it: what it held, plus the input, memory and
    recurrent slices each against its weight's slice. -/
theorem pay1_apply (v6 v9 v12 : Vec Ideal S256x128 .bf16) (v26 : Vec Ideal S256x2048 .f32) (v27 v30 v34 : Vec Ideal S2048x128 .bf16)
    (p : Fin 256) (q : Fin 2048) :
    k0_pay1 (F := Ideal) (k0_pay11 v9) (k0_pay12 v12) v26 (k0_pay14 v6 v27) (k0_pay15 v30)
        (constant (F := Ideal) S256x2048 .f32 0x00000000#32) v34 (ix2 p q)
      = v26 (ix2 p q) + (((∑ a : Fin 128, v6 (ix2 p a) * v27 (ix2 q a)) + (∑ a : Fin 128, v12 (ix2 p a) * v30 (ix2 q a))) + (∑ a : Fin 128, v9 (ix2 p a) * v34 (ix2 q a))) := by
  unfold k0_pay1 k0_pay14 k0_pay10 k0_pay11 k0_pay12 k0_pay15
  refine (shapeCast_self_apply _ _ (ix2 p q)).trans ?_
  exact congrArg (v26 (ix2 p q) + ·)
    (congrArg₂ (· + ·) (congrArg₂ (· + ·) (blk_apply v6 v27 p q) (blk_apply v12 v30 p q)) (blk_apply v9 v34 p q))

/-- The third accumulator's update: what it held, plus the input, memory and recurrent slices each against its
    weight's slice. -/
theorem pay2_apply (v6 v9 v12 : Vec Ideal S256x128 .bf16) (v42 : Vec Ideal S256x2048 .f32) (v43 v46 v50 : Vec Ideal S2048x128 .bf16)
    (p : Fin 256) (q : Fin 2048) :
    k0_pay2 (F := Ideal) (k0_pay10 v6) (k0_pay11 v9) (k0_pay12 v12) v42 v43 v46 v50 (ix2 p q)
      = v42 (ix2 p q) + (((∑ a : Fin 128, v6 (ix2 p a) * v43 (ix2 q a)) + (∑ a : Fin 128, v12 (ix2 p a) * v46 (ix2 q a))) + (∑ a : Fin 128, v9 (ix2 p a) * v50 (ix2 q a))) := by
  unfold k0_pay2 k0_pay10 k0_pay11 k0_pay12
  refine (shapeCast_self_apply _ _ (ix2 p q)).trans ?_
  exact congrArg (v42 (ix2 p q) + ·)
    (congrArg₂ (· + ·) (congrArg₂ (· + ·) (blk_apply v6 v43 p q) (blk_apply v12 v46 p q)) (blk_apply v9 v50 p q))

/-- The three resets store zero. -/
theorem pay7_apply (j : S256x2048.Idx) : k0_pay7 (F := Ideal) j = 0 := by
  unfold k0_pay7
  refine (shapeCast_self_apply _ _ j).trans ?_
  exact Ideal.ofBits_zero_f32
theorem pay8_apply (j : S256x2048.Idx) : k0_pay8 (F := Ideal) j = 0 := by
  unfold k0_pay8
  refine (shapeCast_self_apply _ _ j).trans ?_
  exact Ideal.ofBits_zero_f32
theorem pay9_apply (j : S256x2048.Idx) : k0_pay9 (F := Ideal) j = 0 := by
  unfold k0_pay9
  refine (shapeCast_self_apply _ _ j).trans ?_
  exact Ideal.ofBits_zero_f32

/-- The input block: the logistic function of the first accumulator plus two biases, each broadcast along the rows. -/
theorem pay4_apply (v61 : Vec Ideal S256x2048 .f32) (v62 v66 : Vec Ideal S1x2048 .f32) (p : Fin 256) (q : Fin 2048) :
    k0_pay4 (F := Ideal) v61 v62 v66 (ix2 p q)
      = Ideal.logistic ((v61 (ix2 p q) + v62 (ix2 (0 : Fin 1) q)) + v66 (ix2 (0 : Fin 1) q)) := by
  unfold k0_pay4
  exact congrArg Ideal.logistic
    (congrArg₂ (· + ·) (congrArg (v61 (ix2 p q) + ·) (row_apply v62 p q)) (row_apply v66 p q))

/-- A gate: the logistic function of its accumulator plus three biases, each broadcast along the rows. -/
theorem pay5_apply (v71 : Vec Ideal S256x2048 .f32) (v72 v76 v80 : Vec Ideal S1x2048 .f32) (p : Fin 256) (q : Fin 2048) :
    k0_pay5 (F := Ideal) v71 v72 v76 v80 (ix2 p q)
      = Ideal.logistic (((v71 (ix2 p q) + v72 (ix2 (0 : Fin 1) q)) + v76 (ix2 (0 : Fin 1) q)) + v80 (ix2 (0 : Fin 1) q)) := by
  unfold k0_pay5
  exact congrArg Ideal.logistic
    (congrArg₂ (· + ·)
      (congrArg₂ (· + ·) (congrArg (v71 (ix2 p q) + ·) (row_apply v72 p q)) (row_apply v76 p q)) (row_apply v80 p q))
theorem pay6_apply (v85 : Vec Ideal S256x2048 .f32) (v86 v90 v94 : Vec Ideal S1x2048 .f32) (p : Fin 256) (q : Fin 2048) :
    k0_pay6 (F := Ideal) v85 v86 v90 v94 (ix2 p q)
      = Ideal.logistic (((v85 (ix2 p q) + v86 (ix2 (0 : Fin 1) q)) + v90 (ix2 (0 : Fin 1) q)) + v94 (ix2 (0 : Fin 1) q)) := by
  unfold k0_pay6
  exact congrArg Ideal.logistic
    (congrArg₂ (· + ·)
      (congrArg₂ (· + ·) (congrArg (v85 (ix2 p q) + ·) (row_apply v86 p q)) (row_apply v90 p q)) (row_apply v94 p q))

/-- The output tile: the read gate times the memory tile (the change of float format is the identity here) through
    the decoder weight, plus the decoder bias broadcast along the rows, plus the input block times the input gate. -/
theorem pay3_apply (v70 v84 v98 : FVec Ideal S256x2048 .f32) (v99 : Vec Ideal S256x2048 .bf16) (v104 : Vec Ideal S2048x2048 .bf16)
    (v107 : Vec Ideal S1x2048 .f32) (p : Fin 256) (q : Fin 2048) :
    k0_pay3 (F := Ideal) v70 v84 v98 v99 v104 v107 (ix2 p q)
      = ((∑ j : Fin 2048, (v98 (ix2 p j) * v99 (ix2 p j)) * v104 (ix2 q j)) + v107 (ix2 (0 : Fin 1) q))
        + v70 (ix2 p q) * v84 (ix2 p q) := by
  unfold k0_pay3
  exact congrArg (· + v70 (ix2 p q) * v84 (ix2 p q))
    (congrArg₂ (· + ·) (dec_apply v98 v99 v104 p q) (row_apply v107 p q))

end Cert.KernelIdeal.Payloads

end
-- ==== Proof.KernelBlocks.lean ====
/-
  The kernel's input blocks, read at an entry of the argument arrays.

  The grid has 16 row tiles by 16 feature blocks, point `t` being row tile `t / 16` and feature block `t % 16`. A
  batch tile is rows `256·(t / 16) … 256·(t / 16) + 255` of its array, all 2048 columns; a weight's block is all 2048
  rows of its array and columns `128·(t % 16) … 128·(t % 16) + 127`; the decoder weight and the biases are staged
  whole. Before the call the program only changes float formats (the identity on the extended reals) and views a
  bias of shape [2048] as [1, 2048], so each block entry is an entry of an argument array.
-/
import proofs.«102152_j54262616818001_1_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

/-- The grid has 256 points. -/
theorem point_lt (t : Fin cfg0.N) : t.val < 256 := lt_of_lt_of_eq t.isLt (show cfg0.N = 256 from N_0)

/-- Row `p` of the tile at point `t` is row `256·(t / 16) + p` of the batch. -/
abbrev row (t : Fin cfg0.N) (p : Fin 256) : Fin 4096 := ⟨256 * (t.val / 16) + p.val, by have := point_lt t; have := p.isLt; omega⟩
/-- Column `a` of a weight's block at point `t` is input feature `128·(t % 16) + a`. -/
abbrev col (t : Fin cfg0.N) (a : Fin 128) : Fin 2048 := ⟨128 * (t.val % 16) + a.val, by have := a.isLt; omega⟩

/-- The point's grid coordinates: row tile and feature block. -/
theorem coords_0 (t : Fin cfg0.N) : ((grid0.coords t) 0).val = t.val / 16 :=
  (by decide +kernel : ∀ t : Fin grid0.N, ((grid0.coords t) 0).val = t.val / 16) t
theorem coords_1 (t : Fin cfg0.N) : ((grid0.coords t) 1).val = t.val % 16 :=
  (by decide +kernel : ∀ t : Fin grid0.N, ((grid0.coords t) 1).val = t.val % 16) t

/-! ## Where a block's entry sits in its array

An entry of a block has, on each axis, the coordinate `(block index) · (block size) + (coordinate inside the block)` in
the array. The lemmas below turn that, with the block index known, into the array index the statements name. -/

/-- A rank-2 index is determined by its two coordinates. -/
theorem idx2_eq {n0 n1 : ℕ} (e : (⟨2, ![n0, n1]⟩ : Shape).Idx) (x : Fin n0) (y : Fin n1)
    (h0 : (e 0).val = x.val) (h1 : (e 1).val = y.val) : e = ix2 x y := by
  funext a
  apply Fin.ext
  match a with
  | ⟨0, _⟩ => exact h0
  | ⟨1, _⟩ => exact h1

/-- Batch tile: block index `(t / 16, 0)` with blocks of 256 × 2048 gives row `256·(t / 16) + p` and column `j`. -/
theorem batch_idx (t : Fin cfg0.N) (p : Fin 256) (j : Fin 2048) (e : S4096x2048.Idx) (i0 i1 : ℕ)
    (hi0 : i0 = t.val / 16) (hi1 : i1 = 0)
    (h0 : (e 0).val = i0 * 256 + 1 * p.val) (h1 : (e 1).val = i1 * 2048 + 1 * j.val) : e = ix2 (row t p) j :=
  idx2_eq e (row t p) j (by show _ = 256 * (t.val / 16) + p.val; omega) (by omega)

/-- Weight block: block index `(0, t % 16)` with blocks of 2048 × 128 gives row `q` and column `128·(t % 16) + a`. -/
theorem weight_idx (t : Fin cfg0.N) (q : Fin 2048) (a : Fin 128) (e : S2048x2048.Idx) (i0 i1 : ℕ)
    (hi0 : i0 = 0) (hi1 : i1 = t.val % 16)
    (h0 : (e 0).val = i0 * 2048 + 1 * q.val) (h1 : (e 1).val = i1 * 128 + 1 * a.val) : e = ix2 q (col t a) :=
  idx2_eq e q (col t a) (by omega) (by show _ = 128 * (t.val % 16) + a.val; omega)

/-- An array staged whole: block index `(0, 0)` with the block the size of the array gives the entry's own coordinates. -/
theorem whole_idx {n0 n1 : ℕ} (x : Fin n0) (y : Fin n1) (e : (⟨2, ![n0, n1]⟩ : Shape).Idx) (i0 i1 : ℕ)
    (hi0 : i0 = 0) (hi1 : i1 = 0)
    (h0 : (e 0).val = i0 * n0 + 1 * x.val) (h1 : (e 1).val = i1 * n1 + 1 * y.val) : e = ix2 x y :=
  idx2_eq e x y (by rw [h0, hi0]; omega) (by rw [h1, hi1]; omega)

/-! ## The block index of each window at each of the 256 points -/

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = t.val / 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 16 :=
  (by decide +kernel : ∀ t : Fin grid0.N, _)
theorem idx4 : ∀ t : Fin cfg0.N, win0_4.index t (0 : Fin 2) = 0 ∧ win0_4.index t (1 : Fin 2) = t.val % 16 :=
  (by decide +kernel : ∀ t : Fin grid0.N, _)
theorem idx5 : ∀ t : Fin cfg0.N, win0_5.index t (0 : Fin 2) = 0 ∧ win0_5.index t (1 : Fin 2) = t.val % 16 :=
  (by decide +kernel : ∀ t : Fin grid0.N, _)
theorem idx6 : ∀ t : Fin cfg0.N, win0_6.index t (0 : Fin 2) = 0 ∧ win0_6.index t (1 : Fin 2) = t.val % 16 :=
  (by decide +kernel : ∀ t : Fin grid0.N, _)
theorem idx7 : ∀ t : Fin cfg0.N, win0_7.index t (0 : Fin 2) = 0 ∧ win0_7.index t (1 : Fin 2) = t.val % 16 :=
  (by decide +kernel : ∀ t : Fin grid0.N, _)
theorem idx8 : ∀ t : Fin cfg0.N, win0_8.index t (0 : Fin 2) = 0 ∧ win0_8.index t (1 : Fin 2) = t.val % 16 :=
  (by decide +kernel : ∀ t : Fin grid0.N, _)
theorem idx9 : ∀ t : Fin cfg0.N, win0_9.index t (0 : Fin 2) = 0 ∧ win0_9.index t (1 : Fin 2) = t.val % 16 :=
  (by decide +kernel : ∀ t : Fin grid0.N, _)
theorem idx10 : ∀ t : Fin cfg0.N, win0_10.index t (0 : Fin 2) = 0 ∧ win0_10.index t (1 : Fin 2) = t.val % 16 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)

section
variable {F : FTy → Type} [FloatOps F]
variable (m : (ℓ : Loc nD τ sig) → Buf (Elt F) ℓ)

/-- Window 0's block at point `t`, at its literal type. -/
abbrev blk0 (c : Dev nD) (t : Fin cfg0.N) : Vec F S256x2048 .bf16 := iblk m c 0 t
/-- Window 1's block at point `t`, at its literal type. -/
abbrev blk1 (c : Dev nD) (t : Fin cfg0.N) : Vec F S256x2048 .bf16 := iblk m c 1 t
/-- Window 2's block at point `t`, at its literal type. -/
abbrev blk2 (c : Dev nD) (t : Fin cfg0.N) : Vec F S256x2048 .bf16 := iblk m c 2 t
/-- Window 3's block at point `t`, at its literal type. -/
abbrev blk3 (c : Dev nD) (t : Fin cfg0.N) : Vec F S2048x128 .bf16 := iblk m c 3 t
/-- Window 4's block at point `t`, at its literal type. -/
abbrev blk4 (c : Dev nD) (t : Fin cfg0.N) : Vec F S2048x128 .bf16 := iblk m c 4 t
/-- Window 5's block at point `t`, at its literal type. -/
abbrev blk5 (c : Dev nD) (t : Fin cfg0.N) : Vec F S2048x128 .bf16 := iblk m c 5 t
/-- Window 6's block at point `t`, at its literal type. -/
abbrev blk6 (c : Dev nD) (t : Fin cfg0.N) : Vec F S2048x128 .bf16 := iblk m c 6 t
/-- Window 7's block at point `t`, at its literal type. -/
abbrev blk7 (c : Dev nD) (t : Fin cfg0.N) : Vec F S2048x128 .bf16 := iblk m c 7 t
/-- Window 8's block at point `t`, at its literal type. -/
abbrev blk8 (c : Dev nD) (t : Fin cfg0.N) : Vec F S2048x128 .bf16 := iblk m c 8 t
/-- Window 9's block at point `t`, at its literal type. -/
abbrev blk9 (c : Dev nD) (t : Fin cfg0.N) : Vec F S2048x128 .bf16 := iblk m c 9 t
/-- Window 10's block at point `t`, at its literal type. -/
abbrev blk10 (c : Dev nD) (t : Fin cfg0.N) : Vec F S2048x128 .bf16 := iblk m c 10 t
/-- Window 11's block at point `t`, at its literal type. -/
abbrev blk11 (c : Dev nD) (t : Fin cfg0.N) : Vec F S2048x2048 .bf16 := iblk m c 11 t
/-- Window 12's block at point `t`, at its literal type. -/
abbrev blk12 (c : Dev nD) (t : Fin cfg0.N) : Vec F S1x2048 .f32 := iblk m c 12 t
/-- Window 13's block at point `t`, at its literal type. -/
abbrev blk13 (c : Dev nD) (t : Fin cfg0.N) : Vec F S1x2048 .f32 := iblk m c 13 t
/-- Window 14's block at point `t`, at its literal type. -/
abbrev blk14 (c : Dev nD) (t : Fin cfg0.N) : Vec F S1x2048 .f32 := iblk m c 14 t
/-- Window 15's block at point `t`, at its literal type. -/
abbrev blk15 (c : Dev nD) (t : Fin cfg0.N) : Vec F S1x2048 .f32 := iblk m c 15 t
/-- Window 16's block at point `t`, at its literal type. -/
abbrev blk16 (c : Dev nD) (t : Fin cfg0.N) : Vec F S1x2048 .f32 := iblk m c 16 t
/-- Window 17's block at point `t`, at its literal type. -/
abbrev blk17 (c : Dev nD) (t : Fin cfg0.N) : Vec F S1x2048 .f32 := iblk m c 17 t
/-- Window 18's block at point `t`, at its literal type. -/
abbrev blk18 (c : Dev nD) (t : Fin cfg0.N) : Vec F S1x2048 .f32 := iblk m c 18 t
/-- Window 19's block at point `t`, at its literal type. -/
abbrev blk19 (c : Dev nD) (t : Fin cfg0.N) : Vec F S1x2048 .f32 := iblk m c 19 t
/-- Window 20's block at point `t`, at its literal type. -/
abbrev blk20 (c : Dev nD) (t : Fin cfg0.N) : Vec F S1x2048 .f32 := iblk m c 20 t

end

section
variable (mI : (ℓ : Loc nD τ sig) → Buf (Elt Ideal) ℓ)

/-! ## The arrays the call reads

On the extended reals a change of float format is the identity, so the array a batch or weight window reads is the
argument itself; a bias window reads its argument of shape [2048] viewed as [1, 2048]. -/

theorem V_v0 (c : Dev nD) : (V mI c main_v0 : S4096x2048.Idx → EReal) = mI ((c : Thread nD τ).loc main_arg0) := by
  dsimp only [Gen.V, Gen.hostOps0]; after_results; rfl
theorem V_v1 (c : Dev nD) : (V mI c main_v1 : S4096x2048.Idx → EReal) = mI ((c : Thread nD τ).loc main_arg1) := by
  dsimp only [Gen.V, Gen.hostOps0]; after_results; rfl
theorem V_v2 (c : Dev nD) : (V mI c main_v2 : S4096x2048.Idx → EReal) = mI ((c : Thread nD τ).loc main_arg2) := by
  dsimp only [Gen.V, Gen.hostOps0]; after_results; rfl
theorem V_v3 (c : Dev nD) : (V mI c main_v3 : S2048x2048.Idx → EReal) = mI ((c : Thread nD τ).loc main_arg3) := by
  dsimp only [Gen.V, Gen.hostOps0]; after_results; rfl
theorem V_v4 (c : Dev nD) : (V mI c main_v4 : S2048x2048.Idx → EReal) = mI ((c : Thread nD τ).loc main_arg5) := by
  dsimp only [Gen.V, Gen.hostOps0]; after_results; rfl
theorem V_v5 (c : Dev nD) : (V mI c main_v5 : S2048x2048.Idx → EReal) = mI ((c : Thread nD τ).loc main_arg7) := by
  dsimp only [Gen.V, Gen.hostOps0]; after_results; rfl
theorem V_v6 (c : Dev nD) : (V mI c main_v6 : S2048x2048.Idx → EReal) = mI ((c : Thread nD τ).loc main_arg9) := by
  dsimp only [Gen.V, Gen.hostOps0]; after_results; rfl
theorem V_v7 (c : Dev nD) : (V mI c main_v7 : S2048x2048.Idx → EReal) = mI ((c : Thread nD τ).loc main_arg11) := by
  dsimp only [Gen.V, Gen.hostOps0]; after_results; rfl
theorem V_v8 (c : Dev nD) : (V mI c main_v8 : S2048x2048.Idx → EReal) = mI ((c : Thread nD τ).loc main_arg13) := by
  dsimp only [Gen.V, Gen.hostOps0]; after_results; rfl
theorem V_v9 (c : Dev nD) : (V mI c main_v9 : S2048x2048.Idx → EReal) = mI ((c : Thread nD τ).loc main_arg15) := by
  dsimp only [Gen.V, Gen.hostOps0]; after_results; rfl
theorem V_v10 (c : Dev nD) : (V mI c main_v10 : S2048x2048.Idx → EReal) = mI ((c : Thread nD τ).loc main_arg17) := by
  dsimp only [Gen.V, Gen.hostOps0]; after_results; rfl
theorem V_v11 (c : Dev nD) : (V mI c main_v11 : S2048x2048.Idx → EReal) = mI ((c : Thread nD τ).loc main_arg19) := by
  dsimp only [Gen.V, Gen.hostOps0]; after_results; rfl
theorem V_v12 (c : Dev nD) : (V mI c main_v12 : S1x2048.Idx → EReal)
    = shapeCast S1x2048 (mI ((c : Thread nD τ).loc main_arg4) : S2048.Idx → EReal) shapeCasts_S2048_S1x2048 := by
  dsimp only [Gen.V, Gen.hostOps0]; after_results; rfl
theorem V_v13 (c : Dev nD) : (V mI c main_v13 : S1x2048.Idx → EReal)
    = shapeCast S1x2048 (mI ((c : Thread nD τ).loc main_arg6) : S2048.Idx → EReal) shapeCasts_S2048_S1x2048 := by
  dsimp only [Gen.V, Gen.hostOps0]; after_results; rfl
theorem V_v14 (c : Dev nD) : (V mI c main_v14 : S1x2048.Idx → EReal)
    = shapeCast S1x2048 (mI ((c : Thread nD τ).loc main_arg8) : S2048.Idx → EReal) shapeCasts_S2048_S1x2048 := by
  dsimp only [Gen.V, Gen.hostOps0]; after_results; rfl
theorem V_v15 (c : Dev nD) : (V mI c main_v15 : S1x2048.Idx → EReal)
    = shapeCast S1x2048 (mI ((c : Thread nD τ).loc main_arg10) : S2048.Idx → EReal) shapeCasts_S2048_S1x2048 := by
  dsimp only [Gen.V, Gen.hostOps0]; after_results; rfl
theorem V_v16 (c : Dev nD) : (V mI c main_v16 : S1x2048.Idx → EReal)
    = shapeCast S1x2048 (mI ((c : Thread nD τ).loc main_arg12) : S2048.Idx → EReal) shapeCasts_S2048_S1x2048 := by
  dsimp only [Gen.V, Gen.hostOps0]; after_results; rfl
theorem V_v17 (c : Dev nD) : (V mI c main_v17 : S1x2048.Idx → EReal)
    = shapeCast S1x2048 (mI ((c : Thread nD τ).loc main_arg14) : S2048.Idx → EReal) shapeCasts_S2048_S1x2048 := by
  dsimp only [Gen.V, Gen.hostOps0]; after_results; rfl
theorem V_v18 (c : Dev nD) : (V mI c main_v18 : S1x2048.Idx → EReal)
    = shapeCast S1x2048 (mI ((c : Thread nD τ).loc main_arg16) : S2048.Idx → EReal) shapeCasts_S2048_S1x2048 := by
  dsimp only [Gen.V, Gen.hostOps0]; after_results; rfl
theorem V_v19 (c : Dev nD) : (V mI c main_v19 : S1x2048.Idx → EReal)
    = shapeCast S1x2048 (mI ((c : Thread nD τ).loc main_arg18) : S2048.Idx → EReal) shapeCasts_S2048_S1x2048 := by
  dsimp only [Gen.V, Gen.hostOps0]; after_results; rfl
theorem V_v20 (c : Dev nD) : (V mI c main_v20 : S1x2048.Idx → EReal)
    = shapeCast S1x2048 (mI ((c : Thread nD τ).loc main_arg20) : S2048.Idx → EReal) shapeCasts_S2048_S1x2048 := by
  dsimp only [Gen.V, Gen.hostOps0]; after_results; rfl

/-! ## The batch tiles -/

theorem blk0_apply (c : Dev nD) (t : Fin cfg0.N) (p : Fin 256) (j : Fin 2048) :
    blk0 mI c t (ix2 p j) = (mI ((c : Thread nD τ).loc main_arg0)) (ix2 (row t p) j) := by
  unfold blk0 iblk
  rw [View.read_apply]
  show V mI c main_v0 (((cfg0.win 0).blk t).view.emb (ix2 p j)) = _
  rw [V_v0]
  exact congrArg _ (batch_idx t p j _ (win0_0.index t (0 : Fin 2)) (win0_0.index t (1 : Fin 2)) (idx0 t).1 (idx0 t).2 rfl rfl)

theorem blk1_apply (c : Dev nD) (t : Fin cfg0.N) (p : Fin 256) (j : Fin 2048) :
    blk1 mI c t (ix2 p j) = (mI ((c : Thread nD τ).loc main_arg1)) (ix2 (row t p) j) := by
  unfold blk1 iblk
  rw [View.read_apply]
  show V mI c main_v1 (((cfg0.win 1).blk t).view.emb (ix2 p j)) = _
  rw [V_v1]
  exact congrArg _ (batch_idx t p j _ (win0_1.index t (0 : Fin 2)) (win0_1.index t (1 : Fin 2)) (idx1 t).1 (idx1 t).2 rfl rfl)

theorem blk2_apply (c : Dev nD) (t : Fin cfg0.N) (p : Fin 256) (j : Fin 2048) :
    blk2 mI c t (ix2 p j) = (mI ((c : Thread nD τ).loc main_arg2)) (ix2 (row t p) j) := by
  unfold blk2 iblk
  rw [View.read_apply]
  show V mI c main_v2 (((cfg0.win 2).blk t).view.emb (ix2 p j)) = _
  rw [V_v2]
  exact congrArg _ (batch_idx t p j _ (win0_2.index t (0 : Fin 2)) (win0_2.index t (1 : Fin 2)) (idx2 t).1 (idx2 t).2 rfl rfl)

/-! ## The weights' blocks -/

theorem blk3_apply (c : Dev nD) (t : Fin cfg0.N) (q : Fin 2048) (a : Fin 128) :
    blk3 mI c t (ix2 q a) = (mI ((c : Thread nD τ).loc main_arg3)) (ix2 q (col t a)) := by
  unfold blk3 iblk
  rw [View.read_apply]
  show V mI c main_v3 (((cfg0.win 3).blk t).view.emb (ix2 q a)) = _
  rw [V_v3]
  exact congrArg _ (weight_idx t q a _ (win0_3.index t (0 : Fin 2)) (win0_3.index t (1 : Fin 2)) (idx3 t).1 (idx3 t).2 rfl rfl)

theorem blk4_apply (c : Dev nD) (t : Fin cfg0.N) (q : Fin 2048) (a : Fin 128) :
    blk4 mI c t (ix2 q a) = (mI ((c : Thread nD τ).loc main_arg5)) (ix2 q (col t a)) := by
  unfold blk4 iblk
  rw [View.read_apply]
  show V mI c main_v4 (((cfg0.win 4).blk t).view.emb (ix2 q a)) = _
  rw [V_v4]
  exact congrArg _ (weight_idx t q a _ (win0_4.index t (0 : Fin 2)) (win0_4.index t (1 : Fin 2)) (idx4 t).1 (idx4 t).2 rfl rfl)

theorem blk5_apply (c : Dev nD) (t : Fin cfg0.N) (q : Fin 2048) (a : Fin 128) :
    blk5 mI c t (ix2 q a) = (mI ((c : Thread nD τ).loc main_arg7)) (ix2 q (col t a)) := by
  unfold blk5 iblk
  rw [View.read_apply]
  show V mI c main_v5 (((cfg0.win 5).blk t).view.emb (ix2 q a)) = _
  rw [V_v5]
  exact congrArg _ (weight_idx t q a _ (win0_5.index t (0 : Fin 2)) (win0_5.index t (1 : Fin 2)) (idx5 t).1 (idx5 t).2 rfl rfl)

theorem blk6_apply (c : Dev nD) (t : Fin cfg0.N) (q : Fin 2048) (a : Fin 128) :
    blk6 mI c t (ix2 q a) = (mI ((c : Thread nD τ).loc main_arg9)) (ix2 q (col t a)) := by
  unfold blk6 iblk
  rw [View.read_apply]
  show V mI c main_v6 (((cfg0.win 6).blk t).view.emb (ix2 q a)) = _
  rw [V_v6]
  exact congrArg _ (weight_idx t q a _ (win0_6.index t (0 : Fin 2)) (win0_6.index t (1 : Fin 2)) (idx6 t).1 (idx6 t).2 rfl rfl)

theorem blk7_apply (c : Dev nD) (t : Fin cfg0.N) (q : Fin 2048) (a : Fin 128) :
    blk7 mI c t (ix2 q a) = (mI ((c : Thread nD τ).loc main_arg11)) (ix2 q (col t a)) := by
  unfold blk7 iblk
  rw [View.read_apply]
  show V mI c main_v7 (((cfg0.win 7).blk t).view.emb (ix2 q a)) = _
  rw [V_v7]
  exact congrArg _ (weight_idx t q a _ (win0_7.index t (0 : Fin 2)) (win0_7.index t (1 : Fin 2)) (idx7 t).1 (idx7 t).2 rfl rfl)

theorem blk8_apply (c : Dev nD) (t : Fin cfg0.N) (q : Fin 2048) (a : Fin 128) :
    blk8 mI c t (ix2 q a) = (mI ((c : Thread nD τ).loc main_arg13)) (ix2 q (col t a)) := by
  unfold blk8 iblk
  rw [View.read_apply]
  show V mI c main_v8 (((cfg0.win 8).blk t).view.emb (ix2 q a)) = _
  rw [V_v8]
  exact congrArg _ (weight_idx t q a _ (win0_8.index t (0 : Fin 2)) (win0_8.index t (1 : Fin 2)) (idx8 t).1 (idx8 t).2 rfl rfl)

theorem blk9_apply (c : Dev nD) (t : Fin cfg0.N) (q : Fin 2048) (a : Fin 128) :
    blk9 mI c t (ix2 q a) = (mI ((c : Thread nD τ).loc main_arg15)) (ix2 q (col t a)) := by
  unfold blk9 iblk
  rw [View.read_apply]
  show V mI c main_v9 (((cfg0.win 9).blk t).view.emb (ix2 q a)) = _
  rw [V_v9]
  exact congrArg _ (weight_idx t q a _ (win0_9.index t (0 : Fin 2)) (win0_9.index t (1 : Fin 2)) (idx9 t).1 (idx9 t).2 rfl rfl)

theorem blk10_apply (c : Dev nD) (t : Fin cfg0.N) (q : Fin 2048) (a : Fin 128) :
    blk10 mI c t (ix2 q a) = (mI ((c : Thread nD τ).loc main_arg17)) (ix2 q (col t a)) := by
  unfold blk10 iblk
  rw [View.read_apply]
  show V mI c main_v10 (((cfg0.win 10).blk t).view.emb (ix2 q a)) = _
  rw [V_v10]
  exact congrArg _ (weight_idx t q a _ (win0_10.index t (0 : Fin 2)) (win0_10.index t (1 : Fin 2)) (idx10 t).1 (idx10 t).2 rfl rfl)

/-! ## The decoder weight, staged whole -/

theorem blk11_apply (c : Dev nD) (t : Fin cfg0.N) (q j : Fin 2048) :
    blk11 mI c t (ix2 q j) = (mI ((c : Thread nD τ).loc main_arg19)) (ix2 q j) := by
  unfold blk11 iblk
  rw [View.read_apply]
  show V mI c main_v11 (((cfg0.win 11).blk t).view.emb (ix2 q j)) = _
  rw [V_v11]
  exact congrArg _ (whole_idx q j _ (win0_11.index t (0 : Fin 2)) (win0_11.index t (1 : Fin 2)) (idx11 t).1 (idx11 t).2 rfl rfl)

/-! ## The biases: entry `(0, q)` of the [1, 2048] view is entry `q` of the argument -/

theorem blk12_apply (c : Dev nD) (t : Fin cfg0.N) (q : Fin 2048) :
    blk12 mI c t (ix2 (0 : Fin 1) q) = (mI ((c : Thread nD τ).loc main_arg4)) (ix1 q) := by
  unfold blk12 iblk
  rw [View.read_apply]
  show V mI c main_v12 (((cfg0.win 12).blk t).view.emb (ix2 (0 : Fin 1) q)) = _
  rw [V_v12]
  rw [whole_idx (0 : Fin 1) q (((cfg0.win 12).blk t).view.emb (ix2 (0 : Fin 1) q)) (win0_12.index t (0 : Fin 2)) (win0_12.index t (1 : Fin 2)) (idx12 t).1 (idx12 t).2 rfl rfl]
  exact shapeCast_a_1a_apply _ _ _ _

theorem blk13_apply (c : Dev nD) (t : Fin cfg0.N) (q : Fin 2048) :
    blk13 mI c t (ix2 (0 : Fin 1) q) = (mI ((c : Thread nD τ).loc main_arg6)) (ix1 q) := by
  unfold blk13 iblk
  rw [View.read_apply]
  show V mI c main_v13 (((cfg0.win 13).blk t).view.emb (ix2 (0 : Fin 1) q)) = _
  rw [V_v13]
  rw [whole_idx (0 : Fin 1) q (((cfg0.win 13).blk t).view.emb (ix2 (0 : Fin 1) q)) (win0_13.index t (0 : Fin 2)) (win0_13.index t (1 : Fin 2)) (idx13 t).1 (idx13 t).2 rfl rfl]
  exact shapeCast_a_1a_apply _ _ _ _

theorem blk14_apply (c : Dev nD) (t : Fin cfg0.N) (q : Fin 2048) :
    blk14 mI c t (ix2 (0 : Fin 1) q) = (mI ((c : Thread nD τ).loc main_arg8)) (ix1 q) := by
  unfold blk14 iblk
  rw [View.read_apply]
  show V mI c main_v14 (((cfg0.win 14).blk t).view.emb (ix2 (0 : Fin 1) q)) = _
  rw [V_v14]
  rw [whole_idx (0 : Fin 1) q (((cfg0.win 14).blk t).view.emb (ix2 (0 : Fin 1) q)) (win0_14.index t (0 : Fin 2)) (win0_14.index t (1 : Fin 2)) (idx14 t).1 (idx14 t).2 rfl rfl]
  exact shapeCast_a_1a_apply _ _ _ _

theorem blk15_apply (c : Dev nD) (t : Fin cfg0.N) (q : Fin 2048) :
    blk15 mI c t (ix2 (0 : Fin 1) q) = (mI ((c : Thread nD τ).loc main_arg10)) (ix1 q) := by
  unfold blk15 iblk
  rw [View.read_apply]
  show V mI c main_v15 (((cfg0.win 15).blk t).view.emb (ix2 (0 : Fin 1) q)) = _
  rw [V_v15]
  rw [whole_idx (0 : Fin 1) q (((cfg0.win 15).blk t).view.emb (ix2 (0 : Fin 1) q)) (win0_15.index t (0 : Fin 2)) (win0_15.index t (1 : Fin 2)) (idx15 t).1 (idx15 t).2 rfl rfl]
  exact shapeCast_a_1a_apply _ _ _ _

theorem blk16_apply (c : Dev nD) (t : Fin cfg0.N) (q : Fin 2048) :
    blk16 mI c t (ix2 (0 : Fin 1) q) = (mI ((c : Thread nD τ).loc main_arg12)) (ix1 q) := by
  unfold blk16 iblk
  rw [View.read_apply]
  show V mI c main_v16 (((cfg0.win 16).blk t).view.emb (ix2 (0 : Fin 1) q)) = _
  rw [V_v16]
  rw [whole_idx (0 : Fin 1) q (((cfg0.win 16).blk t).view.emb (ix2 (0 : Fin 1) q)) (win0_16.index t (0 : Fin 2)) (win0_16.index t (1 : Fin 2)) (idx16 t).1 (idx16 t).2 rfl rfl]
  exact shapeCast_a_1a_apply _ _ _ _

theorem blk17_apply (c : Dev nD) (t : Fin cfg0.N) (q : Fin 2048) :
    blk17 mI c t (ix2 (0 : Fin 1) q) = (mI ((c : Thread nD τ).loc main_arg14)) (ix1 q) := by
  unfold blk17 iblk
  rw [View.read_apply]
  show V mI c main_v17 (((cfg0.win 17).blk t).view.emb (ix2 (0 : Fin 1) q)) = _
  rw [V_v17]
  rw [whole_idx (0 : Fin 1) q (((cfg0.win 17).blk t).view.emb (ix2 (0 : Fin 1) q)) (win0_17.index t (0 : Fin 2)) (win0_17.index t (1 : Fin 2)) (idx17 t).1 (idx17 t).2 rfl rfl]
  exact shapeCast_a_1a_apply _ _ _ _

theorem blk18_apply (c : Dev nD) (t : Fin cfg0.N) (q : Fin 2048) :
    blk18 mI c t (ix2 (0 : Fin 1) q) = (mI ((c : Thread nD τ).loc main_arg16)) (ix1 q) := by
  unfold blk18 iblk
  rw [View.read_apply]
  show V mI c main_v18 (((cfg0.win 18).blk t).view.emb (ix2 (0 : Fin 1) q)) = _
  rw [V_v18]
  rw [whole_idx (0 : Fin 1) q (((cfg0.win 18).blk t).view.emb (ix2 (0 : Fin 1) q)) (win0_18.index t (0 : Fin 2)) (win0_18.index t (1 : Fin 2)) (idx18 t).1 (idx18 t).2 rfl rfl]
  exact shapeCast_a_1a_apply _ _ _ _

theorem blk19_apply (c : Dev nD) (t : Fin cfg0.N) (q : Fin 2048) :
    blk19 mI c t (ix2 (0 : Fin 1) q) = (mI ((c : Thread nD τ).loc main_arg18)) (ix1 q) := by
  unfold blk19 iblk
  rw [View.read_apply]
  show V mI c main_v19 (((cfg0.win 19).blk t).view.emb (ix2 (0 : Fin 1) q)) = _
  rw [V_v19]
  rw [whole_idx (0 : Fin 1) q (((cfg0.win 19).blk t).view.emb (ix2 (0 : Fin 1) q)) (win0_19.index t (0 : Fin 2)) (win0_19.index t (1 : Fin 2)) (idx19 t).1 (idx19 t).2 rfl rfl]
  exact shapeCast_a_1a_apply _ _ _ _

theorem blk20_apply (c : Dev nD) (t : Fin cfg0.N) (q : Fin 2048) :
    blk20 mI c t (ix2 (0 : Fin 1) q) = (mI ((c : Thread nD τ).loc main_arg20)) (ix1 q) := by
  unfold blk20 iblk
  rw [View.read_apply]
  show V mI c main_v20 (((cfg0.win 20).blk t).view.emb (ix2 (0 : Fin 1) q)) = _
  rw [V_v20]
  rw [whole_idx (0 : Fin 1) q (((cfg0.win 20).blk t).view.emb (ix2 (0 : Fin 1) q)) (win0_20.index t (0 : Fin 2)) (win0_20.index t (1 : Fin 2)) (idx20 t).1 (idx20 t).2 rfl rfl]
  exact shapeCast_a_1a_apply _ _ _ _

end

end Cert.KernelIdeal.Blocks

end
-- ==== Proof.LibSumBlocks.lean ====
/-
  A finite sum cut into consecutive blocks of equal length.

  In any commutative additive monoid, the sum of `f` over `Fin (m * n)` is the sum over the `m` blocks of the
  sums over each block's `n` consecutive entries, entry `a` of block `s` being `n * s + a`. Only the
  commutativity and associativity of addition are used, so the law holds on the extended reals with their
  infinities.
-/
import Mathlib.Algebra.BigOperators.Fin
import Mathlib.Logic.Equiv.Fin.Basic

namespace Cert.Lib.SumBlocks

open Finset

variable {β : Type*} [AddCommMonoid β]

/-- Entry `a` of block `s` is below `m * n`. -/
theorem block_entry_lt {m n : ℕ} (s : Fin m) (a : Fin n) : n * s.val + a.val < m * n := by
  have ha := a.isLt
  have h1 : n * (s.val + 1) ≤ n * m := Nat.mul_le_mul_left n s.isLt
  rw [Nat.mul_succ] at h1
  rw [Nat.mul_comm m n]
  omega

/-- The sum over `Fin (m * n)` is the sum over blocks of the sums inside each block. -/
theorem sum_fin_mul (m n : ℕ) (f : Fin (m * n) → β) :
    ∑ j : Fin (m * n), f j = ∑ s : Fin m, ∑ a : Fin n, f ⟨n * s.val + a.val, block_entry_lt s a⟩ := by
  rw [← Equiv.sum_comp finProdFinEquiv f, Fintype.sum_prod_type]
  refine Finset.sum_congr rfl fun s _ => Finset.sum_congr rfl fun a _ => ?_
  exact congrArg f (Fin.ext (by simp [finProdFinEquiv, Nat.add_comm]))

/-- The same law with the blocks counted by a `Finset.range`, as a fold over consecutive steps presents them:
    `g` is a function of every natural, read only below `m * n`. -/
theorem sum_range_mul (m n : ℕ) (g : ℕ → β) :
    ∑ j ∈ range (m * n), g j = ∑ s ∈ range m, ∑ a ∈ range n, g (n * s + a) := by
  induction m with
  | zero => simp
  | succ m ih =>
    rw [Finset.sum_range_succ, ← ih, Nat.succ_mul, Finset.sum_range_add, Nat.mul_comm n m]

end Cert.Lib.SumBlocks
-- ==== Proof.Spec.lean ====
/-
  The recurrent cell's returned state as one function of its arguments, index by index, on the extended reals.

  Every linear layer `v ↦ v · Wᵀ + b` pairs row `p` of a batch of activations with row `q` of its weight
  matrix (the weights are stored [out, in]). Three gates are logistic functions of sums of such layers, and the
  returned state at `(p, q)` is

      (Σ_j (read_gate (p, j) · mem0 (p, j)) · W_dec (q, j) + b_dec q) + block_inp (p, q) · inp_gate (p, q).

  The sums inside the gates are grouped here as the plain program groups them: each layer's product plus its own
  bias, then the layers added. A layer's product over the 2048 input features is also the sum of its sixteen
  partial products over consecutive blocks of 128 features (`lin_eq_sum_part`), which is how a kernel that walks
  the feature axis block by block accumulates it; only commutativity and associativity of addition enter.
-/
import Idealize.ShloMosaic.Lib.ValueIdx
import Idealize.ShloMosaic.PureOps.Ideal.Laws
import proofs.«102152_j54262616818001_1_alg».proof.Proof.LibSumBlocks

noncomputable section

namespace Cert.Spec

open Idealize.ShloMosaic Idealize.ShloMosaic.ValueIdx

/-- A batch of 4096 rows of 2048 features: the input, the recurrent output state, the memory state. -/
abbrev Batch := (⟨2, ![4096, 2048]⟩ : Shape).Idx → EReal
/-- A linear layer's weight matrix, stored [out, in]. -/
abbrev Weight := (⟨2, ![2048, 2048]⟩ : Shape).Idx → EReal
/-- A linear layer's bias. -/
abbrev Bias := (⟨1, ![2048]⟩ : Shape).Idx → EReal

/-- A linear layer without its bias, at example `p` and output feature `q`: row `p` of `v` against row `q` of `W`. -/
def lin (v : Batch) (W : Weight) (p : Fin 4096) (q : Fin 2048) : EReal :=
  ∑ j : Fin 2048, v (ix2 p j) * W (ix2 q j)

/-- Feature `a` of block `s` of the sixteen blocks of 128 input features. -/
abbrev feat (s : Fin 16) (a : Fin 128) : Fin 2048 := ⟨128 * s.val + a.val, by omega⟩

/-- The part of a linear layer's product that input features `128·s … 128·s + 127` contribute. -/
def part (v : Batch) (W : Weight) (p : Fin 4096) (q : Fin 2048) (s : Fin 16) : EReal :=
  ∑ a : Fin 128, v (ix2 p (feat s a)) * W (ix2 q (feat s a))

/-- A layer's product is the sum of its sixteen blocks' parts. -/
theorem lin_eq_sum_part (v : Batch) (W : Weight) (p : Fin 4096) (q : Fin 2048) :
    lin v W p q = ∑ s : Fin 16, part v W p q s :=
  Cert.Lib.SumBlocks.sum_fin_mul 16 128 (fun j : Fin (16 * 128) => v (ix2 p j) * W (ix2 q j))

/-- The input block: the logistic function of the input's layer plus the recurrent output's layer. -/
def blockInp (x out0 : Batch) (w_inp : Weight) (b_inp : Bias) (w_rec_inp : Weight) (b_rec_inp : Bias)
    (p : Fin 4096) (q : Fin 2048) : EReal :=
  Ideal.logistic ((lin x w_inp p q + b_inp (ix1 q)) + (lin out0 w_rec_inp p q + b_rec_inp (ix1 q)))

/-- A gate: the logistic function of the input's layer, the memory's layer and the recurrent output's layer. -/
def gate (x mem0 out0 : Batch) (w : Weight) (b : Bias) (w_mem : Weight) (b_mem : Bias) (w_rec : Weight) (b_rec : Bias)
    (p : Fin 4096) (q : Fin 2048) : EReal :=
  Ideal.logistic (((lin x w p q + b (ix1 q)) + (lin mem0 w_mem p q + b_mem (ix1 q))) + (lin out0 w_rec p q + b_rec (ix1 q)))

/-- The returned state at index `i = (p, q)`: the read-gated memory through the decoder layer, plus the input
    block times the input gate. -/
def hidden (x out0 mem0 : Batch)
    (w_inpgate : Weight) (b_inpgate : Bias) (w_rec_inpgate : Weight) (b_rec_inpgate : Bias)
    (w_mem_inpgate : Weight) (b_mem_inpgate : Bias) (w_inp : Weight) (b_inp : Bias)
    (w_rec_inp : Weight) (b_rec_inp : Bias) (w_readgate : Weight) (b_readgate : Bias)
    (w_rec_readgate : Weight) (b_rec_readgate : Bias) (w_mem_readgate : Weight) (b_mem_readgate : Bias)
    (w_decoder : Weight) (b_decoder : Bias) : Batch := fun i =>
  ((∑ j : Fin 2048,
        (gate x mem0 out0 w_readgate b_readgate w_mem_readgate b_mem_readgate w_rec_readgate b_rec_readgate (i 0) j
          * mem0 (ix2 (i 0) j)) * w_decoder (ix2 (i 1) j))
      + b_decoder (ix1 (i 1)))
    + blockInp x out0 w_inp b_inp w_rec_inp b_rec_inp (i 0) (i 1)
      * gate x mem0 out0 w_inpgate b_inpgate w_mem_inpgate b_mem_inpgate w_rec_inpgate b_rec_inpgate (i 0) (i 1)

end Cert.Spec

end
-- ==== Proof.KernelArgs.lean ====
/-
  The kernel program's argument arrays, named at the types the specification uses: three batches of 4096 rows by
  2048 features, and nine weight matrices [2048, 2048] each followed by its bias [2048] (the last four argument
  pairs of the program, the write gate's and the encoder's, do not enter the returned state).
-/
import proofs.«102152_j54262616818001_1_alg».proof.Proof.Gen.KernelIdeal
import proofs.«102152_j54262616818001_1_alg».proof.Proof.Spec

noncomputable section

namespace Cert.KernelIdeal.Args

open Cert.KernelIdeal Idealize.ShloMosaic Idealize.ShloMosaic.TcCoe Idealize.SL.Sem

variable (mI : (ℓ : Loc nD τ sig) → Buf (Elt Ideal) ℓ)

/-- Argument 0, `x`, as the specification types it. -/
abbrev a0 (c : Dev nD) : Cert.Spec.Batch := mI ((c : Thread nD τ).loc main_arg0)
/-- Argument 1, `out0`, as the specification types it. -/
abbrev a1 (c : Dev nD) : Cert.Spec.Batch := mI ((c : Thread nD τ).loc main_arg1)
/-- Argument 2, `mem0`, as the specification types it. -/
abbrev a2 (c : Dev nD) : Cert.Spec.Batch := mI ((c : Thread nD τ).loc main_arg2)
/-- Argument 3, `w_inpgate`, as the specification types it. -/
abbrev a3 (c : Dev nD) : Cert.Spec.Weight := mI ((c : Thread nD τ).loc main_arg3)
/-- Argument 4, `b_inpgate`, as the specification types it. -/
abbrev a4 (c : Dev nD) : Cert.Spec.Bias := mI ((c : Thread nD τ).loc main_arg4)
/-- Argument 5, `w_rec_inpgate`, as the specification types it. -/
abbrev a5 (c : Dev nD) : Cert.Spec.Weight := mI ((c : Thread nD τ).loc main_arg5)
/-- Argument 6, `b_rec_inpgate`, as the specification types it. -/
abbrev a6 (c : Dev nD) : Cert.Spec.Bias := mI ((c : Thread nD τ).loc main_arg6)
/-- Argument 7, `w_mem_inpgate`, as the specification types it. -/
abbrev a7 (c : Dev nD) : Cert.Spec.Weight := mI ((c : Thread nD τ).loc main_arg7)
/-- Argument 8, `b_mem_inpgate`, as the specification types it. -/
abbrev a8 (c : Dev nD) : Cert.Spec.Bias := mI ((c : Thread nD τ).loc main_arg8)
/-- Argument 9, `w_inp`, as the specification types it. -/
abbrev a9 (c : Dev nD) : Cert.Spec.Weight := mI ((c : Thread nD τ).loc main_arg9)
/-- Argument 10, `b_inp`, as the specification types it. -/
abbrev a10 (c : Dev nD) : Cert.Spec.Bias := mI ((c : Thread nD τ).loc main_arg10)
/-- Argument 11, `w_rec_inp`, as the specification types it. -/
abbrev a11 (c : Dev nD) : Cert.Spec.Weight := mI ((c : Thread nD τ).loc main_arg11)
/-- Argument 12, `b_rec_inp`, as the specification types it. -/
abbrev a12 (c : Dev nD) : Cert.Spec.Bias := mI ((c : Thread nD τ).loc main_arg12)
/-- Argument 13, `w_readgate`, as the specification types it. -/
abbrev a13 (c : Dev nD) : Cert.Spec.Weight := mI ((c : Thread nD τ).loc main_arg13)
/-- Argument 14, `b_readgate`, as the specification types it. -/
abbrev a14 (c : Dev nD) : Cert.Spec.Bias := mI ((c : Thread nD τ).loc main_arg14)
/-- Argument 15, `w_rec_readgate`, as the specification types it. -/
abbrev a15 (c : Dev nD) : Cert.Spec.Weight := mI ((c : Thread nD τ).loc main_arg15)
/-- Argument 16, `b_rec_readgate`, as the specification types it. -/
abbrev a16 (c : Dev nD) : Cert.Spec.Bias := mI ((c : Thread nD τ).loc main_arg16)
/-- Argument 17, `w_mem_readgate`, as the specification types it. -/
abbrev a17 (c : Dev nD) : Cert.Spec.Weight := mI ((c : Thread nD τ).loc main_arg17)
/-- Argument 18, `b_mem_readgate`, as the specification types it. -/
abbrev a18 (c : Dev nD) : Cert.Spec.Bias := mI ((c : Thread nD τ).loc main_arg18)
/-- Argument 19, `w_decoder`, as the specification types it. -/
abbrev a19 (c : Dev nD) : Cert.Spec.Weight := mI ((c : Thread nD τ).loc main_arg19)
/-- Argument 20, `b_decoder`, as the specification types it. -/
abbrev a20 (c : Dev nD) : Cert.Spec.Bias := mI ((c : Thread nD τ).loc main_arg20)

/-- The returned state the specification assigns to these arguments. -/
abbrev spec (c : Dev nD) : Cert.Spec.Batch :=
  Cert.Spec.hidden (a0 mI c) (a1 mI c) (a2 mI c) (a3 mI c) (a4 mI c) (a5 mI c) (a6 mI c) (a7 mI c) (a8 mI c) (a9 mI c) (a10 mI c) (a11 mI c) (a12 mI c) (a13 mI c) (a14 mI c) (a15 mI c) (a16 mI c) (a17 mI c) (a18 mI c) (a19 mI c) (a20 mI c)

end Cert.KernelIdeal.Args

end
-- ==== Proof.KernelStep.lean ====
/-
  One grid point's contribution to each accumulator, on the extended reals.

  Point `n` of the grid is row tile `n / 16` and feature block `n % 16`. At it the body adds to each accumulator, at row
  `p` and column `q` of the tile, the partial product over that feature block of every layer the accumulator
  gathers: row `256·(n / 16) + p` of a batch against row `q` of a weight, over features `128·(n % 16) …
  128·(n % 16) + 127`. At the first point of a row tile the accumulator is first reset, so it ends at zero plus the
  addend; at every other point it ends at what the point before left plus the addend. The addends are written as
  functions of every natural `n` so that a fold over consecutive points can sum them.
-/
import proofs.«102152_j54262616818001_1_alg».proof.Proof.KernelIdealValue
import proofs.«102152_j54262616818001_1_alg».proof.Proof.KernelPieces
import proofs.«102152_j54262616818001_1_alg».proof.Proof.KernelPayloads
import proofs.«102152_j54262616818001_1_alg».proof.Proof.KernelBlocks
import proofs.«102152_j54262616818001_1_alg».proof.Proof.KernelArgs

set_option maxRecDepth 16384

noncomputable section

namespace Cert.KernelIdeal.Step

open Cert.KernelIdeal Cert.KernelIdeal.Gen Cert.KernelIdeal.GenP Cert.KernelIdeal.ValueP
open Cert.KernelIdeal.Args Cert.KernelIdeal.Blocks Cert.KernelIdeal.Slice
open Idealize.ShloMosaic Idealize.ShloMosaic.TcCoe Idealize.SL.Sem Idealize.ShloMosaic.ValueIdx

/-- The feature block of point `n`. -/
abbrev fblk (n : ℕ) : Fin 16 := ⟨n % 16, Nat.mod_lt _ (by decide)⟩
/-- Row `p` of the tile of point `n`, in the batch (total in `n`: the row tile is taken modulo the sixteen there are). -/
abbrev rowAt (n : ℕ) (p : Fin 256) : Fin 4096 :=
  ⟨256 * ((n / 16) % 16) + p.val, by have := Nat.mod_lt (n / 16) (show 0 < 16 by decide); have := p.isLt; omega⟩

variable (mI : (ℓ : Loc nD τ sig) → Buf (Elt Ideal) ℓ)

/-- What point `n` adds to the input block's accumulator at row `p`, column `q` of its tile: each of its layers' partial
    product over feature block `n % 16`, at row `256·(n / 16) + p` of the batch. -/
def add0 (c : Dev nD) (n : ℕ) (p : Fin 256) (q : Fin 2048) : EReal :=
  Cert.Spec.part (a0 mI c) (a9 mI c) (rowAt n p) q (fblk n) + Cert.Spec.part (a1 mI c) (a11 mI c) (rowAt n p) q (fblk n)

/-- What point `n` adds to the input gate's accumulator at row `p`, column `q` of its tile: each of its layers' partial
    product over feature block `n % 16`, at row `256·(n / 16) + p` of the batch. -/
def add1 (c : Dev nD) (n : ℕ) (p : Fin 256) (q : Fin 2048) : EReal :=
  (Cert.Spec.part (a0 mI c) (a3 mI c) (rowAt n p) q (fblk n) + Cert.Spec.part (a2 mI c) (a7 mI c) (rowAt n p) q (fblk n)) + Cert.Spec.part (a1 mI c) (a5 mI c) (rowAt n p) q (fblk n)

/-- What point `n` adds to the read gate's accumulator at row `p`, column `q` of its tile: each of its layers' partial
    product over feature block `n % 16`, at row `256·(n / 16) + p` of the batch. -/
def add2 (c : Dev nD) (n : ℕ) (p : Fin 256) (q : Fin 2048) : EReal :=
  (Cert.Spec.part (a0 mI c) (a13 mI c) (rowAt n p) q (fblk n) + Cert.Spec.part (a2 mI c) (a17 mI c) (rowAt n p) q (fblk n)) + Cert.Spec.part (a1 mI c) (a15 mI c) (rowAt n p) q (fblk n)

/-! ## Where an entry of a slice or a weight block sits in its argument array -/

/-- Row `p` of the tile at point `n` is row `256·(n / 16) + p` of the batch: the grid has sixteen row tiles, so the
    row tile `n / 16` is its own remainder modulo sixteen. -/
theorem row_eq (n : ℕ) (hb : n < cfg0.N) (p : Fin 256) : Blocks.row (⟨n, hb⟩ : Fin cfg0.N) p = rowAt n p := by
  have hn : n < 256 := point_lt (⟨n, hb⟩ : Fin cfg0.N)
  apply Fin.ext
  show 256 * (n / 16) + p.val = 256 * ((n / 16) % 16) + p.val
  omega

/-- Column `a` of the slice loaded at point `n` is input feature `128·(n % 16) + a`: the point's second grid
    coordinate is its feature block. -/
theorem slice_col (n : ℕ) (hb : n < cfg0.N) (a : Fin 128)
    (h : 128 * ((grid0.coords (⟨n, hb⟩ : Fin cfg0.N)) 1).val + a.val < 2048) :
    (⟨128 * ((grid0.coords (⟨n, hb⟩ : Fin cfg0.N)) 1).val + a.val, h⟩ : Fin 2048) = Cert.Spec.feat (fblk n) a := by
  apply Fin.ext
  show 128 * ((grid0.coords (⟨n, hb⟩ : Fin cfg0.N)) 1).val + a.val = 128 * (n % 16) + a.val
  rw [coords_1 (⟨n, hb⟩ : Fin cfg0.N)]

/-- A sum over the 128 features of a block, of a slice's row against a weight block's row, is the layer's partial
    product over that block once each factor is read in its argument array. -/
theorem sum_eq_part (v : Cert.Spec.Batch) (W : Cert.Spec.Weight) (l : Vec Ideal S256x128 .bf16) (r : Vec Ideal S2048x128 .bf16)
    (P : Fin 4096) (p : Fin 256) (q : Fin 2048) (s : Fin 16)
    (hl : ∀ a : Fin 128, l (ix2 p a) = v (ix2 P (Cert.Spec.feat s a)))
    (hr : ∀ a : Fin 128, r (ix2 q a) = W (ix2 q (Cert.Spec.feat s a))) :
    (∑ a : Fin 128, l (ix2 p a) * r (ix2 q a)) = Cert.Spec.part v W P q s := by
  unfold Cert.Spec.part
  exact Finset.sum_congr rfl fun a _ => by rw [hl a, hr a]

/-- Entry `(p, a)` of the slice of tile 0 loaded at point `n`, in argument 0. -/
theorem act0 (c : Dev nD) (n : ℕ) (hb : n < cfg0.N) (p : Fin 256) (a : Fin 128) :
    colBlk (grid0.coords (⟨n, hb⟩ : Fin cfg0.N)) (blk0 mI c (⟨n, hb⟩ : Fin cfg0.N)) (ix2 p a)
      = a0 mI c (ix2 (rowAt n p) (Cert.Spec.feat (fblk n) a)) := by
  refine (colBlk_apply (grid0.coords (⟨n, hb⟩ : Fin cfg0.N)) (blk0 mI c (⟨n, hb⟩ : Fin cfg0.N)) p a).trans ?_
  refine (congrArg (fun j : Fin 2048 => blk0 mI c (⟨n, hb⟩ : Fin cfg0.N) (ix2 p j)) (slice_col n hb a _)).trans ?_
  refine (blk0_apply mI c (⟨n, hb⟩ : Fin cfg0.N) p (Cert.Spec.feat (fblk n) a)).trans ?_
  exact congrArg (fun P : Fin 4096 => a0 mI c (ix2 P (Cert.Spec.feat (fblk n) a))) (row_eq n hb p)

/-- Entry `(p, a)` of the slice of tile 1 loaded at point `n`, in argument 1. -/
theorem act1 (c : Dev nD) (n : ℕ) (hb : n < cfg0.N) (p : Fin 256) (a : Fin 128) :
    colBlk (grid0.coords (⟨n, hb⟩ : Fin cfg0.N)) (blk1 mI c (⟨n, hb⟩ : Fin cfg0.N)) (ix2 p a)
      = a1 mI c (ix2 (rowAt n p) (Cert.Spec.feat (fblk n) a)) := by
  refine (colBlk_apply (grid0.coords (⟨n, hb⟩ : Fin cfg0.N)) (blk1 mI c (⟨n, hb⟩ : Fin cfg0.N)) p a).trans ?_
  refine (congrArg (fun j : Fin 2048 => blk1 mI c (⟨n, hb⟩ : Fin cfg0.N) (ix2 p j)) (slice_col n hb a _)).trans ?_
  refine (blk1_apply mI c (⟨n, hb⟩ : Fin cfg0.N) p (Cert.Spec.feat (fblk n) a)).trans ?_
  exact congrArg (fun P : Fin 4096 => a1 mI c (ix2 P (Cert.Spec.feat (fblk n) a))) (row_eq n hb p)

/-- Entry `(p, a)` of the slice of tile 2 loaded at point `n`, in argument 2. -/
theorem act2 (c : Dev nD) (n : ℕ) (hb : n < cfg0.N) (p : Fin 256) (a : Fin 128) :
    colBlk (grid0.coords (⟨n, hb⟩ : Fin cfg0.N)) (blk2 mI c (⟨n, hb⟩ : Fin cfg0.N)) (ix2 p a)
      = a2 mI c (ix2 (rowAt n p) (Cert.Spec.feat (fblk n) a)) := by
  refine (colBlk_apply (grid0.coords (⟨n, hb⟩ : Fin cfg0.N)) (blk2 mI c (⟨n, hb⟩ : Fin cfg0.N)) p a).trans ?_
  refine (congrArg (fun j : Fin 2048 => blk2 mI c (⟨n, hb⟩ : Fin cfg0.N) (ix2 p j)) (slice_col n hb a _)).trans ?_
  refine (blk2_apply mI c (⟨n, hb⟩ : Fin cfg0.N) p (Cert.Spec.feat (fblk n) a)).trans ?_
  exact congrArg (fun P : Fin 4096 => a2 mI c (ix2 P (Cert.Spec.feat (fblk n) a))) (row_eq n hb p)

/-! ## The three updates, over any held value -/

/-- The input block's accumulator after the update at point `n`, over any value `v` it held. -/
theorem upd0 (c : Dev nD) (n : ℕ) (hb : n < cfg0.N) (v : Vec Ideal S256x2048 .f32) (p : Fin 256) (q : Fin 2048) :
    k0_pay13 (F := Ideal) (colBlk (grid0.coords (⟨n, hb⟩ : Fin cfg0.N)) (blk0 mI c (⟨n, hb⟩ : Fin cfg0.N))) (colBlk (grid0.coords (⟨n, hb⟩ : Fin cfg0.N)) (blk1 mI c (⟨n, hb⟩ : Fin cfg0.N))) v
        (blk6 mI c (⟨n, hb⟩ : Fin cfg0.N)) (blk7 mI c (⟨n, hb⟩ : Fin cfg0.N)) (ix2 p q)
      = v (ix2 p q) + add0 mI c n p q := by
  refine (Payloads.pay13_apply (colBlk (grid0.coords (⟨n, hb⟩ : Fin cfg0.N)) (blk0 mI c (⟨n, hb⟩ : Fin cfg0.N))) (colBlk (grid0.coords (⟨n, hb⟩ : Fin cfg0.N)) (blk1 mI c (⟨n, hb⟩ : Fin cfg0.N))) v
    (blk6 mI c (⟨n, hb⟩ : Fin cfg0.N)) (blk7 mI c (⟨n, hb⟩ : Fin cfg0.N)) p q).trans ?_
  unfold add0
  exact congrArg (v (ix2 p q) + ·) (congrArg₂ (· + ·)
    (sum_eq_part (a0 mI c) (a9 mI c) (colBlk (grid0.coords (⟨n, hb⟩ : Fin cfg0.N)) (blk0 mI c (⟨n, hb⟩ : Fin cfg0.N))) (blk6 mI c (⟨n, hb⟩ : Fin cfg0.N)) (rowAt n p) p q (fblk n)
      (fun a => act0 mI c n hb p a) (fun a => blk6_apply mI c (⟨n, hb⟩ : Fin cfg0.N) q a))
    (sum_eq_part (a1 mI c) (a11 mI c) (colBlk (grid0.coords (⟨n, hb⟩ : Fin cfg0.N)) (blk1 mI c (⟨n, hb⟩ : Fin cfg0.N))) (blk7 mI c (⟨n, hb⟩ : Fin cfg0.N)) (rowAt n p) p q (fblk n)
      (fun a => act1 mI c n hb p a) (fun a => blk7_apply mI c (⟨n, hb⟩ : Fin cfg0.N) q a)))

/-- The input gate's accumulator after the update at point `n`, over any value `v` it held. -/
theorem upd1 (c : Dev nD) (n : ℕ) (hb : n < cfg0.N) (v : Vec Ideal S256x2048 .f32) (p : Fin 256) (q : Fin 2048) :
    k0_pay1 (F := Ideal) (k0_pay11 (colBlk (grid0.coords (⟨n, hb⟩ : Fin cfg0.N)) (blk1 mI c (⟨n, hb⟩ : Fin cfg0.N)))) (k0_pay12 (colBlk (grid0.coords (⟨n, hb⟩ : Fin cfg0.N)) (blk2 mI c (⟨n, hb⟩ : Fin cfg0.N)))) v
        (k0_pay14 (colBlk (grid0.coords (⟨n, hb⟩ : Fin cfg0.N)) (blk0 mI c (⟨n, hb⟩ : Fin cfg0.N))) (blk3 mI c (⟨n, hb⟩ : Fin cfg0.N))) (k0_pay15 (blk5 mI c (⟨n, hb⟩ : Fin cfg0.N)))
        (constant (F := Ideal) S256x2048 .f32 0x00000000#32) (blk4 mI c (⟨n, hb⟩ : Fin cfg0.N)) (ix2 p q)
      = v (ix2 p q) + add1 mI c n p q := by
  refine (Payloads.pay1_apply (colBlk (grid0.coords (⟨n, hb⟩ : Fin cfg0.N)) (blk0 mI c (⟨n, hb⟩ : Fin cfg0.N))) (colBlk (grid0.coords (⟨n, hb⟩ : Fin cfg0.N)) (blk1 mI c (⟨n, hb⟩ : Fin cfg0.N))) (colBlk (grid0.coords (⟨n, hb⟩ : Fin cfg0.N)) (blk2 mI c (⟨n, hb⟩ : Fin cfg0.N))) v
    (blk3 mI c (⟨n, hb⟩ : Fin cfg0.N)) (blk5 mI c (⟨n, hb⟩ : Fin cfg0.N)) (blk4 mI c (⟨n, hb⟩ : Fin cfg0.N)) p q).trans ?_
  unfold add1
  exact congrArg (v (ix2 p q) + ·) (congrArg₂ (· + ·) (congrArg₂ (· + ·)
    (sum_eq_part (a0 mI c) (a3 mI c) (colBlk (grid0.coords (⟨n, hb⟩ : Fin cfg0.N)) (blk0 mI c (⟨n, hb⟩ : Fin cfg0.N))) (blk3 mI c (⟨n, hb⟩ : Fin cfg0.N)) (rowAt n p) p q (fblk n)
      (fun a => act0 mI c n hb p a) (fun a => blk3_apply mI c (⟨n, hb⟩ : Fin cfg0.N) q a))
    (sum_eq_part (a2 mI c) (a7 mI c) (colBlk (grid0.coords (⟨n, hb⟩ : Fin cfg0.N)) (blk2 mI c (⟨n, hb⟩ : Fin cfg0.N))) (blk5 mI c (⟨n, hb⟩ : Fin cfg0.N)) (rowAt n p) p q (fblk n)
      (fun a => act2 mI c n hb p a) (fun a => blk5_apply mI c (⟨n, hb⟩ : Fin cfg0.N) q a)))
    (sum_eq_part (a1 mI c) (a5 mI c) (colBlk (grid0.coords (⟨n, hb⟩ : Fin cfg0.N)) (blk1 mI c (⟨n, hb⟩ : Fin cfg0.N))) (blk4 mI c (⟨n, hb⟩ : Fin cfg0.N)) (rowAt n p) p q (fblk n)
      (fun a => act1 mI c n hb p a) (fun a => blk4_apply mI c (⟨n, hb⟩ : Fin cfg0.N) q a)))

/-- The read gate's accumulator after the update at point `n`, over any value `v` it held. -/
theorem upd2 (c : Dev nD) (n : ℕ) (hb : n < cfg0.N) (v : Vec Ideal S256x2048 .f32) (p : Fin 256) (q : Fin 2048) :
    k0_pay2 (F := Ideal) (k0_pay10 (colBlk (grid0.coords (⟨n, hb⟩ : Fin cfg0.N)) (blk0 mI c (⟨n, hb⟩ : Fin cfg0.N)))) (k0_pay11 (colBlk (grid0.coords (⟨n, hb⟩ : Fin cfg0.N)) (blk1 mI c (⟨n, hb⟩ : Fin cfg0.N)))) (k0_pay12 (colBlk (grid0.coords (⟨n, hb⟩ : Fin cfg0.N)) (blk2 mI c (⟨n, hb⟩ : Fin cfg0.N)))) v
        (blk8 mI c (⟨n, hb⟩ : Fin cfg0.N)) (blk10 mI c (⟨n, hb⟩ : Fin cfg0.N)) (blk9 mI c (⟨n, hb⟩ : Fin cfg0.N)) (ix2 p q)
      = v (ix2 p q) + add2 mI c n p q := by
  refine (Payloads.pay2_apply (colBlk (grid0.coords (⟨n, hb⟩ : Fin cfg0.N)) (blk0 mI c (⟨n, hb⟩ : Fin cfg0.N))) (colBlk (grid0.coords (⟨n, hb⟩ : Fin cfg0.N)) (blk1 mI c (⟨n, hb⟩ : Fin cfg0.N))) (colBlk (grid0.coords (⟨n, hb⟩ : Fin cfg0.N)) (blk2 mI c (⟨n, hb⟩ : Fin cfg0.N))) v
    (blk8 mI c (⟨n, hb⟩ : Fin cfg0.N)) (blk10 mI c (⟨n, hb⟩ : Fin cfg0.N)) (blk9 mI c (⟨n, hb⟩ : Fin cfg0.N)) p q).trans ?_
  unfold add2
  exact congrArg (v (ix2 p q) + ·) (congrArg₂ (· + ·) (congrArg₂ (· + ·)
    (sum_eq_part (a0 mI c) (a13 mI c) (colBlk (grid0.coords (⟨n, hb⟩ : Fin cfg0.N)) (blk0 mI c (⟨n, hb⟩ : Fin cfg0.N))) (blk8 mI c (⟨n, hb⟩ : Fin cfg0.N)) (rowAt n p) p q (fblk n)
      (fun a => act0 mI c n hb p a) (fun a => blk8_apply mI c (⟨n, hb⟩ : Fin cfg0.N) q a))
    (sum_eq_part (a2 mI c) (a17 mI c) (colBlk (grid0.coords (⟨n, hb⟩ : Fin cfg0.N)) (blk2 mI c (⟨n, hb⟩ : Fin cfg0.N))) (blk10 mI c (⟨n, hb⟩ : Fin cfg0.N)) (rowAt n p) p q (fblk n)
      (fun a => act2 mI c n hb p a) (fun a => blk10_apply mI c (⟨n, hb⟩ : Fin cfg0.N) q a)))
    (sum_eq_part (a1 mI c) (a15 mI c) (colBlk (grid0.coords (⟨n, hb⟩ : Fin cfg0.N)) (blk1 mI c (⟨n, hb⟩ : Fin cfg0.N))) (blk9 mI c (⟨n, hb⟩ : Fin cfg0.N)) (rowAt n p) p q (fblk n)
      (fun a => act1 mI c n hb p a) (fun a => blk9_apply mI c (⟨n, hb⟩ : Fin cfg0.N) q a)))

/-! ## The six statements -/

/-- The input block's accumulator at the first point of a row tile: zero plus this point's addend. -/
theorem sc0_reset (c : Dev nD) (n : ℕ) (hb : n < cfg0.N) (h0 : n % 16 = 0) (acc : Vec Ideal S256x2048 .f32)
    (p : Fin 256) (q : Fin 2048) :
    scAt0_0 mI c n hb acc (ix2 p q) = 0 + add0 mI c n p q := by
  have h1 : ¬n % 16 = 15 := by omega
  unfold scAt0_0
  rw [dif_pos h0, dif_neg h1]
  -- The reset stores zero and the update reads it back, so the point leaves the update over the zero tile.
  refine (congrFun (Pieces.sout0_A_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N))) (ix2 p q)).trans ?_
  refine (upd0 mI c n hb (k0_pay7 (F := Ideal)) p q).trans ?_
  rw [Payloads.pay7_apply]

/-- The input block's accumulator at any later point of a row tile: what the point before left plus this point's addend. -/
theorem sc0_step (c : Dev nD) (n : ℕ) (hb : n < cfg0.N) (h0 : ¬n % 16 = 0) (acc : Vec Ideal S256x2048 .f32)
    (p : Fin 256) (q : Fin 2048) :
    scAt0_0 mI c n hb acc (ix2 p q) = acc (ix2 p q) + add0 mI c n p q := by
  unfold scAt0_0
  by_cases h1 : n % 16 = 15
  · -- The last point of the row tile: the same update; the output tile it also stores is not this accumulator.
    rw [dif_neg h0, dif_pos h1]
    refine (congrFun (Pieces.sout0_C_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) acc (outsAt0 mI c ((⟨n, hb⟩ : Fin cfg0.N).val - 1) (Nat.lt_of_le_of_lt (Nat.sub_le _ _) (⟨n, hb⟩ : Fin cfg0.N).isLt)).2.2.1 (outsAt0 mI c ((⟨n, hb⟩ : Fin cfg0.N).val - 1) (Nat.lt_of_le_of_lt (Nat.sub_le _ _) (⟨n, hb⟩ : Fin cfg0.N).isLt)).2.2.2) (ix2 p q)).trans ?_
    exact upd0 mI c n hb acc p q
  · -- A middle point of the row tile.
    rw [dif_neg h0, dif_neg h1]
    refine (congrFun (Pieces.sout0_B_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) acc (outsAt0 mI c ((⟨n, hb⟩ : Fin cfg0.N).val - 1) (Nat.lt_of_le_of_lt (Nat.sub_le _ _) (⟨n, hb⟩ : Fin cfg0.N).isLt)).2.2.1 (outsAt0 mI c ((⟨n, hb⟩ : Fin cfg0.N).val - 1) (Nat.lt_of_le_of_lt (Nat.sub_le _ _) (⟨n, hb⟩ : Fin cfg0.N).isLt)).2.2.2) (ix2 p q)).trans ?_
    exact upd0 mI c n hb acc p q

/-- The input gate's accumulator at the first point of a row tile: zero plus this point's addend. -/
theorem sc1_reset (c : Dev nD) (n : ℕ) (hb : n < cfg0.N) (h0 : n % 16 = 0) (acc : Vec Ideal S256x2048 .f32)
    (p : Fin 256) (q : Fin 2048) :
    scAt0_1 mI c n hb acc (ix2 p q) = 0 + add1 mI c n p q := by
  have h1 : ¬n % 16 = 15 := by omega
  unfold scAt0_1
  rw [dif_pos h0, dif_neg h1]
  -- The reset stores zero and the update reads it back, so the point leaves the update over the zero tile.
  refine (congrFun (Pieces.sout0_A_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N))) (ix2 p q)).trans ?_
  refine (upd1 mI c n hb (k0_pay8 (F := Ideal)) p q).trans ?_
  rw [Payloads.pay8_apply]

/-- The input gate's accumulator at any later point of a row tile: what the point before left plus this point's addend. -/
theorem sc1_step (c : Dev nD) (n : ℕ) (hb : n < cfg0.N) (h0 : ¬n % 16 = 0) (acc : Vec Ideal S256x2048 .f32)
    (p : Fin 256) (q : Fin 2048) :
    scAt0_1 mI c n hb acc (ix2 p q) = acc (ix2 p q) + add1 mI c n p q := by
  unfold scAt0_1
  by_cases h1 : n % 16 = 15
  · -- The last point of the row tile: the same update; the output tile it also stores is not this accumulator.
    rw [dif_neg h0, dif_pos h1]
    refine (congrFun (Pieces.sout0_C_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) (outsAt0 mI c ((⟨n, hb⟩ : Fin cfg0.N).val - 1) (Nat.lt_of_le_of_lt (Nat.sub_le _ _) (⟨n, hb⟩ : Fin cfg0.N).isLt)).2.1 acc (outsAt0 mI c ((⟨n, hb⟩ : Fin cfg0.N).val - 1) (Nat.lt_of_le_of_lt (Nat.sub_le _ _) (⟨n, hb⟩ : Fin cfg0.N).isLt)).2.2.2) (ix2 p q)).trans ?_
    exact upd1 mI c n hb acc p q
  · -- A middle point of the row tile.
    rw [dif_neg h0, dif_neg h1]
    refine (congrFun (Pieces.sout0_B_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) (outsAt0 mI c ((⟨n, hb⟩ : Fin cfg0.N).val - 1) (Nat.lt_of_le_of_lt (Nat.sub_le _ _) (⟨n, hb⟩ : Fin cfg0.N).isLt)).2.1 acc (outsAt0 mI c ((⟨n, hb⟩ : Fin cfg0.N).val - 1) (Nat.lt_of_le_of_lt (Nat.sub_le _ _) (⟨n, hb⟩ : Fin cfg0.N).isLt)).2.2.2) (ix2 p q)).trans ?_
    exact upd1 mI c n hb acc p q

/-- The read gate's accumulator at the first point of a row tile: zero plus this point's addend. -/
theorem sc2_reset (c : Dev nD) (n : ℕ) (hb : n < cfg0.N) (h0 : n % 16 = 0) (acc : Vec Ideal S256x2048 .f32)
    (p : Fin 256) (q : Fin 2048) :
    scAt0_2 mI c n hb acc (ix2 p q) = 0 + add2 mI c n p q := by
  have h1 : ¬n % 16 = 15 := by omega
  unfold scAt0_2
  rw [dif_pos h0, dif_neg h1]
  -- The reset stores zero and the update reads it back, so the point leaves the update over the zero tile.
  refine (congrFun (Pieces.sout0_A_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N))) (ix2 p q)).trans ?_
  refine (upd2 mI c n hb (k0_pay9 (F := Ideal)) p q).trans ?_
  rw [Payloads.pay9_apply]

/-- The read gate's accumulator at any later point of a row tile: what the point before left plus this point's addend. -/
theorem sc2_step (c : Dev nD) (n : ℕ) (hb : n < cfg0.N) (h0 : ¬n % 16 = 0) (acc : Vec Ideal S256x2048 .f32)
    (p : Fin 256) (q : Fin 2048) :
    scAt0_2 mI c n hb acc (ix2 p q) = acc (ix2 p q) + add2 mI c n p q := by
  unfold scAt0_2
  by_cases h1 : n % 16 = 15
  · -- The last point of the row tile: the same update; the output tile it also stores is not this accumulator.
    rw [dif_neg h0, dif_pos h1]
    refine (congrFun (Pieces.sout0_C_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) (outsAt0 mI c ((⟨n, hb⟩ : Fin cfg0.N).val - 1) (Nat.lt_of_le_of_lt (Nat.sub_le _ _) (⟨n, hb⟩ : Fin cfg0.N).isLt)).2.1 (outsAt0 mI c ((⟨n, hb⟩ : Fin cfg0.N).val - 1) (Nat.lt_of_le_of_lt (Nat.sub_le _ _) (⟨n, hb⟩ : Fin cfg0.N).isLt)).2.2.1 acc) (ix2 p q)).trans ?_
    exact upd2 mI c n hb acc p q
  · -- A middle point of the row tile.
    rw [dif_neg h0, dif_neg h1]
    refine (congrFun (Pieces.sout0_B_2_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk mI c 0 (⟨n, hb⟩ : Fin cfg0.N)) (iblk mI c 1 (⟨n, hb⟩ : Fin cfg0.N)) (iblk mI c 2 (⟨n, hb⟩ : Fin cfg0.N)) (iblk mI c 3 (⟨n, hb⟩ : Fin cfg0.N)) (iblk mI c 4 (⟨n, hb⟩ : Fin cfg0.N)) (iblk mI c 5 (⟨n, hb⟩ : Fin cfg0.N)) (iblk mI c 6 (⟨n, hb⟩ : Fin cfg0.N)) (iblk mI c 7 (⟨n, hb⟩ : Fin cfg0.N)) (iblk mI c 8 (⟨n, hb⟩ : Fin cfg0.N)) (iblk mI c 9 (⟨n, hb⟩ : Fin cfg0.N)) (iblk mI c 10 (⟨n, hb⟩ : Fin cfg0.N)) (iblk mI c 11 (⟨n, hb⟩ : Fin cfg0.N)) (iblk mI c 12 (⟨n, hb⟩ : Fin cfg0.N)) (iblk mI c 13 (⟨n, hb⟩ : Fin cfg0.N)) (iblk mI c 14 (⟨n, hb⟩ : Fin cfg0.N)) (iblk mI c 15 (⟨n, hb⟩ : Fin cfg0.N)) (iblk mI c 16 (⟨n, hb⟩ : Fin cfg0.N)) (iblk mI c 17 (⟨n, hb⟩ : Fin cfg0.N)) (iblk mI c 18 (⟨n, hb⟩ : Fin cfg0.N)) (iblk mI c 19 (⟨n, hb⟩ : Fin cfg0.N)) (iblk mI c 20 (⟨n, hb⟩ : Fin cfg0.N)) (outsAt0 mI c ((⟨n, hb⟩ : Fin cfg0.N).val - 1) (Nat.lt_of_le_of_lt (Nat.sub_le _ _) (⟨n, hb⟩ : Fin cfg0.N).isLt)).2.1 (outsAt0 mI c ((⟨n, hb⟩ : Fin cfg0.N).val - 1) (Nat.lt_of_le_of_lt (Nat.sub_le _ _) (⟨n, hb⟩ : Fin cfg0.N).isLt)).2.2.1 acc) (ix2 p q)).trans ?_
    exact upd2 mI c n hb acc p q

end Cert.KernelIdeal.Step

end
-- ==== Proof.KernelFold.lean ====
/-
  Each accumulator after a row tile's sixteen points.

  Along a row tile the accumulator is reset at the first point and stepped at each of the next fifteen, every step
  adding that point's addend; so after the last point it holds zero plus the sum of the sixteen addends. The fold
  over the run of points is opened once, by the law for a fold each of whose steps adds a term; the grid's points are
  never enumerated.
-/
import proofs.«102152_j54262616818001_1_alg».proof.Proof.KernelStep

set_option maxRecDepth 16384

noncomputable section

namespace Cert.KernelIdeal.Fold

open Cert.KernelIdeal Cert.KernelIdeal.Gen Cert.KernelIdeal.GenP Cert.KernelIdeal.ValueP
open Cert.KernelIdeal.Args Cert.KernelIdeal.Blocks Cert.KernelIdeal.Slice
open Idealize.ShloMosaic Idealize.ShloMosaic.TcCoe Idealize.SL.Sem Idealize.ShloMosaic.ValueIdx
open Cert.KernelIdeal.Step

variable (mI : (ℓ : Loc nD τ sig) → Buf (Elt Ideal) ℓ)

/-- A fold over the sixteen points of a row tile whose first step resets to zero plus that point's addend and whose
    later steps each add their point's addend holds, after the last step, zero plus the sum of the sixteen addends.
    The offset of the last point is a variable equal to fifteen, so that the bound it carries is not rewritten. -/
theorem fold_last {N : ℕ}
    (sc : (n : ℕ) → n < N → (S256x2048.Idx → EReal) → S256x2048.Idx → EReal)
    (junk : S256x2048.Idx → EReal) (add : ℕ → Fin 256 → Fin 2048 → EReal)
    (hreset : ∀ (n : ℕ) (hb : n < N), n % 16 = 0 → ∀ (acc : S256x2048.Idx → EReal) (p : Fin 256) (q : Fin 2048),
      sc n hb acc (ix2 p q) = 0 + add n p q)
    (hstep : ∀ (n : ℕ) (hb : n < N), ¬n % 16 = 0 → ∀ (acc : S256x2048.Idx → EReal) (p : Fin 256) (q : Fin 2048),
      sc n hb acc (ix2 p q) = acc (ix2 p q) + add n p q)
    (r j : ℕ) (hj : j = 15) (h : 16 * r + j < N) (p : Fin 256) (q : Fin 2048) :
    Pipeline.accAt (fun n h => sc n h junk) sc (16 * r) j h (ix2 p q)
      = 0 + ∑ s ∈ Finset.range 16, add (16 * r + s) p q := by
  subst hj
  have key := Pipeline.accAt_add_apply (ι := S256x2048.Idx) (β := EReal)
    (fun n h => sc n h junk) sc (fun _ => 0) (fun n idx => add n (idx 0) (idx 1)) (16 * r) 15
    (fun hb i => by
      rw [eq_ix2 i]
      exact hreset (16 * r) hb (Nat.mul_mod_right 16 r) junk (i 0) (i 1))
    (fun n hb acc i hlt hle => by
      rw [eq_ix2 i]
      exact hstep n hb (by omega) acc (i 0) (i 1))
    15 (le_refl 15) h (ix2 p q)
  exact key

/-- The input block's accumulator after the last point of a row tile: zero plus the sixteen points' addends. -/
theorem acc0_last (c : Dev nD) (t : Fin cfg0.N) (h15 : t.val % 16 = 15) (p : Fin 256) (q : Fin 2048) :
    (outsAt0 mI c t.val t.isLt).2.1 (ix2 p q)
      = 0 + ∑ s ∈ Finset.range 16, add0 mI c (16 * (t.val / 16) + s) p q := by
  rw [soutsAt0_0_eq mI c t]
  exact fold_last (scAt0_0 mI c) (VS0_0.read (Elt Ideal) VS0_0.junk) (add0 mI c)
    (fun n hb h0 acc p q => sc0_reset mI c n hb h0 acc p q)
    (fun n hb h0 acc p q => sc0_step mI c n hb h0 acc p q)
    (t.val / 16) (t.val % 16) h15 _ p q

/-- The input gate's accumulator after the last point of a row tile: zero plus the sixteen points' addends. -/
theorem acc1_last (c : Dev nD) (t : Fin cfg0.N) (h15 : t.val % 16 = 15) (p : Fin 256) (q : Fin 2048) :
    (outsAt0 mI c t.val t.isLt).2.2.1 (ix2 p q)
      = 0 + ∑ s ∈ Finset.range 16, add1 mI c (16 * (t.val / 16) + s) p q := by
  rw [soutsAt0_1_eq mI c t]
  exact fold_last (scAt0_1 mI c) (VS0_1.read (Elt Ideal) VS0_1.junk) (add1 mI c)
    (fun n hb h0 acc p q => sc1_reset mI c n hb h0 acc p q)
    (fun n hb h0 acc p q => sc1_step mI c n hb h0 acc p q)
    (t.val / 16) (t.val % 16) h15 _ p q

/-- The read gate's accumulator after the last point of a row tile: zero plus the sixteen points' addends. -/
theorem acc2_last (c : Dev nD) (t : Fin cfg0.N) (h15 : t.val % 16 = 15) (p : Fin 256) (q : Fin 2048) :
    (outsAt0 mI c t.val t.isLt).2.2.2 (ix2 p q)
      = 0 + ∑ s ∈ Finset.range 16, add2 mI c (16 * (t.val / 16) + s) p q := by
  rw [soutsAt0_2_eq mI c t]
  exact fold_last (scAt0_2 mI c) (VS0_2.read (Elt Ideal) VS0_2.junk) (add2 mI c)
    (fun n hb h0 acc p q => sc2_reset mI c n hb h0 acc p q)
    (fun n hb h0 acc p q => sc2_step mI c n hb h0 acc p q)
    (t.val / 16) (t.val % 16) h15 _ p q

end Cert.KernelIdeal.Fold

end
-- ==== Proof.Regroup.lean ====
/-
  Sums of layers, grouped two ways.

  A kernel that accumulates several linear layers into ONE running total adds, at each of its sixteen steps, the
  layers' partial products for that step together, starting from zero, and adds the layers' biases at the end. The
  plain program totals each layer separately, adds that layer's bias, and then adds the layers. In a commutative
  additive monoid the two groupings are equal: a sum of sums is the sum of the separate sums, and additions may be
  reordered and reassociated. No subtraction or cancellation is used, so this holds on the extended reals.
-/
import Mathlib.Algebra.BigOperators.Fin
import Mathlib.Tactic.Abel

namespace Cert.Regroup

open Finset

variable {β : Type*} [AddCommMonoid β]

/-- Two layers in one running total, biases last, against each layer with its own bias. -/
theorem two_layers (A B : ℕ → β) (b₁ b₂ : β) :
    ((0 + ∑ s ∈ range 16, (A s + B s)) + b₁) + b₂
      = ((∑ s : Fin 16, A s.val) + b₁) + ((∑ s : Fin 16, B s.val) + b₂) := by
  rw [zero_add, Finset.sum_add_distrib, Finset.sum_range A, Finset.sum_range B]
  abel

/-- Three layers in one running total, biases last, against each layer with its own bias. -/
theorem three_layers (X M O : ℕ → β) (b b_m b_o : β) :
    (((0 + ∑ s ∈ range 16, ((X s + M s) + O s)) + b) + b_m) + b_o
      = (((∑ s : Fin 16, X s.val) + b) + ((∑ s : Fin 16, M s.val) + b_m)) + ((∑ s : Fin 16, O s.val) + b_o) := by
  rw [zero_add, Finset.sum_add_distrib, Finset.sum_add_distrib, Finset.sum_range X, Finset.sum_range M,
    Finset.sum_range O]
  abel

end Cert.Regroup
-- ==== Proof.KernelTile.lean ====
/-
  The output tile at a row tile's last point is the specification's returned state at the tile's rows.

  There the body reads each accumulator after the sixteenth addend, adds the biases, applies the logistic function,
  and stores the decoder layer of the read-gated memory plus the input block times the input gate. Each accumulator
  is zero plus the sixteen points' addends; summing a layer's partial products over the sixteen feature blocks gives
  the layer's whole product, and the kernel's grouping of the layers and biases equals the specification's because
  addition on the extended reals is commutative and associative.
-/
import proofs.«102152_j54262616818001_1_alg».proof.Proof.KernelFold
import proofs.«102152_j54262616818001_1_alg».proof.Proof.Regroup

set_option maxRecDepth 16384

noncomputable section

namespace Cert.KernelIdeal.Tile

open Cert.KernelIdeal Cert.KernelIdeal.Gen Cert.KernelIdeal.GenP Cert.KernelIdeal.ValueP
open Cert.KernelIdeal.Args Cert.KernelIdeal.Blocks Cert.KernelIdeal.Slice
open Idealize.ShloMosaic Idealize.ShloMosaic.TcCoe Idealize.SL.Sem Idealize.ShloMosaic.ValueIdx
open Cert.KernelIdeal.Step Cert.KernelIdeal.Fold

variable (mI : (ℓ : Loc nD τ sig) → Buf (Elt Ideal) ℓ)

/-! ## The last point's stores, over the accumulators it leaves -/

/-- At the last point of a row tile the input block's accumulator is that point's update over what the point before
    left: its own contents plus the input slice against the input weight's block plus the recurrent slice against
    the recurrent weight's block. -/
theorem upd0 (c : Dev nD) (t : Fin cfg0.N) (h15 : t.val % 16 = 15) :
    k0_pay13 (colBlk (grid0.coords t) (blk0 mI c t)) (colBlk (grid0.coords t) (blk1 mI c t))
        (outsAt0 mI c (t.val - 1) (Nat.lt_of_le_of_lt (Nat.sub_le _ _) t.isLt)).2.1 (blk6 mI c t) (blk7 mI c t)
      = (outsAt0 mI c t.val t.isLt).2.1 := by
  have h0 : ¬t.val % 16 = 0 := by omega
  rw [outsAt0_C mI c t h0 h15]
  dsimp only
  exact (Pieces.sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h15) (blk0 mI c t) (blk1 mI c t) (blk2 mI c t) (blk3 mI c t) (blk4 mI c t) (blk5 mI c t) (blk6 mI c t) (blk7 mI c t) (blk8 mI c t) (blk9 mI c t) (blk10 mI c t) (blk11 mI c t) (blk12 mI c t) (blk13 mI c t) (blk14 mI c t) (blk15 mI c t) (blk16 mI c t) (blk17 mI c t) (blk18 mI c t) (blk19 mI c t) (blk20 mI c t) (outsAt0 mI c (t.val - 1) (Nat.lt_of_le_of_lt (Nat.sub_le _ _) t.isLt)).2.1 (outsAt0 mI c (t.val - 1) (Nat.lt_of_le_of_lt (Nat.sub_le _ _) t.isLt)).2.2.1 (outsAt0 mI c (t.val - 1) (Nat.lt_of_le_of_lt (Nat.sub_le _ _) t.isLt)).2.2.2).symm

/-- At the last point of a row tile the input gate's accumulator is that point's update over what the point before
    left. -/
theorem upd1 (c : Dev nD) (t : Fin cfg0.N) (h15 : t.val % 16 = 15) :
    k0_pay1 (k0_pay11 (colBlk (grid0.coords t) (blk1 mI c t))) (k0_pay12 (colBlk (grid0.coords t) (blk2 mI c t)))
        (outsAt0 mI c (t.val - 1) (Nat.lt_of_le_of_lt (Nat.sub_le _ _) t.isLt)).2.2.1
        (k0_pay14 (colBlk (grid0.coords t) (blk0 mI c t)) (blk3 mI c t)) (k0_pay15 (blk5 mI c t)) (constant (F := Ideal) S256x2048 .f32 0x00000000#32) (blk4 mI c t)
      = (outsAt0 mI c t.val t.isLt).2.2.1 := by
  have h0 : ¬t.val % 16 = 0 := by omega
  rw [outsAt0_C mI c t h0 h15]
  dsimp only
  exact (Pieces.sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h15) (blk0 mI c t) (blk1 mI c t) (blk2 mI c t) (blk3 mI c t) (blk4 mI c t) (blk5 mI c t) (blk6 mI c t) (blk7 mI c t) (blk8 mI c t) (blk9 mI c t) (blk10 mI c t) (blk11 mI c t) (blk12 mI c t) (blk13 mI c t) (blk14 mI c t) (blk15 mI c t) (blk16 mI c t) (blk17 mI c t) (blk18 mI c t) (blk19 mI c t) (blk20 mI c t) (outsAt0 mI c (t.val - 1) (Nat.lt_of_le_of_lt (Nat.sub_le _ _) t.isLt)).2.1 (outsAt0 mI c (t.val - 1) (Nat.lt_of_le_of_lt (Nat.sub_le _ _) t.isLt)).2.2.1 (outsAt0 mI c (t.val - 1) (Nat.lt_of_le_of_lt (Nat.sub_le _ _) t.isLt)).2.2.2).symm

/-- At the last point of a row tile the read gate's accumulator is that point's update over what the point before
    left. -/
theorem upd2 (c : Dev nD) (t : Fin cfg0.N) (h15 : t.val % 16 = 15) :
    k0_pay2 (k0_pay10 (colBlk (grid0.coords t) (blk0 mI c t))) (k0_pay11 (colBlk (grid0.coords t) (blk1 mI c t))) (k0_pay12 (colBlk (grid0.coords t) (blk2 mI c t)))
        (outsAt0 mI c (t.val - 1) (Nat.lt_of_le_of_lt (Nat.sub_le _ _) t.isLt)).2.2.2 (blk8 mI c t) (blk10 mI c t) (blk9 mI c t)
      = (outsAt0 mI c t.val t.isLt).2.2.2 := by
  have h0 : ¬t.val % 16 = 0 := by omega
  rw [outsAt0_C mI c t h0 h15]
  dsimp only
  exact (Pieces.sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h15) (blk0 mI c t) (blk1 mI c t) (blk2 mI c t) (blk3 mI c t) (blk4 mI c t) (blk5 mI c t) (blk6 mI c t) (blk7 mI c t) (blk8 mI c t) (blk9 mI c t) (blk10 mI c t) (blk11 mI c t) (blk12 mI c t) (blk13 mI c t) (blk14 mI c t) (blk15 mI c t) (blk16 mI c t) (blk17 mI c t) (blk18 mI c t) (blk19 mI c t) (blk20 mI c t) (outsAt0 mI c (t.val - 1) (Nat.lt_of_le_of_lt (Nat.sub_le _ _) t.isLt)).2.1 (outsAt0 mI c (t.val - 1) (Nat.lt_of_le_of_lt (Nat.sub_le _ _) t.isLt)).2.2.1 (outsAt0 mI c (t.val - 1) (Nat.lt_of_le_of_lt (Nat.sub_le _ _) t.isLt)).2.2.2).symm

/-- The output tile at the last point of a row tile, over the accumulators as that point leaves them: the input block
    and the two gates are read from the accumulators after the sixteenth addend. -/
theorem tile_eq (c : Dev nD) (t : Fin cfg0.N) (h15 : t.val % 16 = 15) :
    (outsAt0 mI c t.val t.isLt).1
      = k0_pay3 (k0_pay4 (outsAt0 mI c t.val t.isLt).2.1 (blk15 mI c t) (blk16 mI c t))
          (k0_pay5 (outsAt0 mI c t.val t.isLt).2.2.1 (blk12 mI c t) (blk14 mI c t) (blk13 mI c t))
          (k0_pay6 (outsAt0 mI c t.val t.isLt).2.2.2 (blk17 mI c t) (blk19 mI c t) (blk18 mI c t))
          (blk2 mI c t) (blk11 mI c t) (blk20 mI c t) := by
  have h0 : ¬t.val % 16 = 0 := by omega
  rw [← upd0 mI c t h15, ← upd1 mI c t h15, ← upd2 mI c t h15]
  rw [outsAt0_C mI c t h0 h15]
  dsimp only
  exact Pieces.out0_C_21_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h15) (blk0 mI c t) (blk1 mI c t) (blk2 mI c t) (blk3 mI c t) (blk4 mI c t) (blk5 mI c t) (blk6 mI c t) (blk7 mI c t) (blk8 mI c t) (blk9 mI c t) (blk10 mI c t) (blk11 mI c t) (blk12 mI c t) (blk13 mI c t) (blk14 mI c t) (blk15 mI c t) (blk16 mI c t) (blk17 mI c t) (blk18 mI c t) (blk19 mI c t) (blk20 mI c t) (outsAt0 mI c (t.val - 1) (Nat.lt_of_le_of_lt (Nat.sub_le _ _) t.isLt)).2.1 (outsAt0 mI c (t.val - 1) (Nat.lt_of_le_of_lt (Nat.sub_le _ _) t.isLt)).2.2.1 (outsAt0 mI c (t.val - 1) (Nat.lt_of_le_of_lt (Nat.sub_le _ _) t.isLt)).2.2.2

/-! ## The sixteen points of a row tile: their feature blocks and their rows -/

/-- Point `16·k + s` is at feature block `s` (modulo sixteen). -/
theorem fblk_add (k s : ℕ) : fblk (16 * k + s) = fblk s :=
  Fin.ext (Nat.mul_add_mod 16 k s)

/-- Feature block `s` of the sixteen is its own residue. -/
theorem fblk_val (s : Fin 16) : fblk s.val = s :=
  Fin.ext (Nat.mod_eq_of_lt s.isLt)

/-- Every point `16·(t / 16) + s`, `s < 16`, of the row tile of `t` has the rows of `t`. -/
theorem rowAt_add (t : Fin cfg0.N) (s : ℕ) (hs : s < 16) (p : Fin 256) :
    rowAt (16 * (t.val / 16) + s) p = row t p := by
  apply Fin.ext
  show 256 * (((16 * (t.val / 16) + s) / 16) % 16) + p.val = 256 * (t.val / 16) + p.val
  have := point_lt t
  omega

/-- A layer's partial product at point `16·(t / 16) + s` of the row tile of `t`: rows of `t`, feature block `s`. -/
theorem part_tile (v : Cert.Spec.Batch) (W : Cert.Spec.Weight) (t : Fin cfg0.N) (s : ℕ) (hs : s < 16)
    (p : Fin 256) (q : Fin 2048) :
    Cert.Spec.part v W (rowAt (16 * (t.val / 16) + s) p) q (fblk (16 * (t.val / 16) + s))
      = Cert.Spec.part v W (row t p) q (fblk s) := by
  rw [rowAt_add t s hs p, fblk_add]

/-- The sixteen feature blocks' partial products add up to the layer's product. -/
theorem sum_part (v : Cert.Spec.Batch) (W : Cert.Spec.Weight) (P : Fin 4096) (q : Fin 2048) :
    ∑ s : Fin 16, Cert.Spec.part v W P q (fblk s.val) = Cert.Spec.lin v W P q := by
  rw [Cert.Spec.lin_eq_sum_part]
  exact Finset.sum_congr rfl fun s _ => by rw [fblk_val]

/-! ## Each accumulator with its biases is the specification's grouped sum -/

/-- The input block's accumulator after the sixteenth addend, plus its two biases: each layer's whole product plus
    its own bias, the two layers added. -/
theorem inp_total (c : Dev nD) (t : Fin cfg0.N) (h15 : t.val % 16 = 15) (p : Fin 256) (q : Fin 2048) :
    ((outsAt0 mI c t.val t.isLt).2.1 (ix2 p q) + (a10 mI c) (ix1 q)) + (a12 mI c) (ix1 q)
      = (Cert.Spec.lin (a0 mI c) (a9 mI c) (row t p) q + (a10 mI c) (ix1 q))
        + (Cert.Spec.lin (a1 mI c) (a11 mI c) (row t p) q + (a12 mI c) (ix1 q)) := by
  rw [acc0_last mI c t h15 p q]
  have hsum : ∑ s ∈ Finset.range 16, add0 mI c (16 * (t.val / 16) + s) p q
      = ∑ s ∈ Finset.range 16, (Cert.Spec.part (a0 mI c) (a9 mI c) (row t p) q (fblk s) + Cert.Spec.part (a1 mI c) (a11 mI c) (row t p) q (fblk s)) := by
    refine Finset.sum_congr rfl fun s hs => ?_
    have hs' : s < 16 := Finset.mem_range.mp hs
    unfold add0
    rw [part_tile (a0 mI c) (a9 mI c) t s hs' p q, part_tile (a1 mI c) (a11 mI c) t s hs' p q]
  rw [hsum]
  refine (Cert.Regroup.two_layers (fun s => Cert.Spec.part (a0 mI c) (a9 mI c) (row t p) q (fblk s)) (fun s => Cert.Spec.part (a1 mI c) (a11 mI c) (row t p) q (fblk s))
    ((a10 mI c) (ix1 q)) ((a12 mI c) (ix1 q))).trans ?_
  rw [sum_part (a0 mI c) (a9 mI c) (row t p) q, sum_part (a1 mI c) (a11 mI c) (row t p) q]

/-- The input gate's accumulator after the sixteenth addend, plus its three biases: each layer's whole product plus
    its own bias, the three layers added. -/
theorem inpgate_total (c : Dev nD) (t : Fin cfg0.N) (h15 : t.val % 16 = 15) (p : Fin 256) (q : Fin 2048) :
    (((outsAt0 mI c t.val t.isLt).2.2.1 (ix2 p q) + (a4 mI c) (ix1 q)) + (a8 mI c) (ix1 q)) + (a6 mI c) (ix1 q)
      = ((Cert.Spec.lin (a0 mI c) (a3 mI c) (row t p) q + (a4 mI c) (ix1 q))
          + (Cert.Spec.lin (a2 mI c) (a7 mI c) (row t p) q + (a8 mI c) (ix1 q)))
        + (Cert.Spec.lin (a1 mI c) (a5 mI c) (row t p) q + (a6 mI c) (ix1 q)) := by
  rw [acc1_last mI c t h15 p q]
  have hsum : ∑ s ∈ Finset.range 16, add1 mI c (16 * (t.val / 16) + s) p q
      = ∑ s ∈ Finset.range 16, ((Cert.Spec.part (a0 mI c) (a3 mI c) (row t p) q (fblk s) + Cert.Spec.part (a2 mI c) (a7 mI c) (row t p) q (fblk s)) + Cert.Spec.part (a1 mI c) (a5 mI c) (row t p) q (fblk s)) := by
    refine Finset.sum_congr rfl fun s hs => ?_
    have hs' : s < 16 := Finset.mem_range.mp hs
    unfold add1
    rw [part_tile (a0 mI c) (a3 mI c) t s hs' p q, part_tile (a2 mI c) (a7 mI c) t s hs' p q,
      part_tile (a1 mI c) (a5 mI c) t s hs' p q]
  rw [hsum]
  refine (Cert.Regroup.three_layers (fun s => Cert.Spec.part (a0 mI c) (a3 mI c) (row t p) q (fblk s)) (fun s => Cert.Spec.part (a2 mI c) (a7 mI c) (row t p) q (fblk s))
    (fun s => Cert.Spec.part (a1 mI c) (a5 mI c) (row t p) q (fblk s)) ((a4 mI c) (ix1 q)) ((a8 mI c) (ix1 q)) ((a6 mI c) (ix1 q))).trans ?_
  rw [sum_part (a0 mI c) (a3 mI c) (row t p) q, sum_part (a2 mI c) (a7 mI c) (row t p) q, sum_part (a1 mI c) (a5 mI c) (row t p) q]

/-- The read gate's accumulator after the sixteenth addend, plus its three biases: each layer's whole product plus
    its own bias, the three layers added. -/
theorem readgate_total (c : Dev nD) (t : Fin cfg0.N) (h15 : t.val % 16 = 15) (p : Fin 256) (q : Fin 2048) :
    (((outsAt0 mI c t.val t.isLt).2.2.2 (ix2 p q) + (a14 mI c) (ix1 q)) + (a18 mI c) (ix1 q)) + (a16 mI c) (ix1 q)
      = ((Cert.Spec.lin (a0 mI c) (a13 mI c) (row t p) q + (a14 mI c) (ix1 q))
          + (Cert.Spec.lin (a2 mI c) (a17 mI c) (row t p) q + (a18 mI c) (ix1 q)))
        + (Cert.Spec.lin (a1 mI c) (a15 mI c) (row t p) q + (a16 mI c) (ix1 q)) := by
  rw [acc2_last mI c t h15 p q]
  have hsum : ∑ s ∈ Finset.range 16, add2 mI c (16 * (t.val / 16) + s) p q
      = ∑ s ∈ Finset.range 16, ((Cert.Spec.part (a0 mI c) (a13 mI c) (row t p) q (fblk s) + Cert.Spec.part (a2 mI c) (a17 mI c) (row t p) q (fblk s)) + Cert.Spec.part (a1 mI c) (a15 mI c) (row t p) q (fblk s)) := by
    refine Finset.sum_congr rfl fun s hs => ?_
    have hs' : s < 16 := Finset.mem_range.mp hs
    unfold add2
    rw [part_tile (a0 mI c) (a13 mI c) t s hs' p q, part_tile (a2 mI c) (a17 mI c) t s hs' p q,
      part_tile (a1 mI c) (a15 mI c) t s hs' p q]
  rw [hsum]
  refine (Cert.Regroup.three_layers (fun s => Cert.Spec.part (a0 mI c) (a13 mI c) (row t p) q (fblk s)) (fun s => Cert.Spec.part (a2 mI c) (a17 mI c) (row t p) q (fblk s))
    (fun s => Cert.Spec.part (a1 mI c) (a15 mI c) (row t p) q (fblk s)) ((a14 mI c) (ix1 q)) ((a18 mI c) (ix1 q)) ((a16 mI c) (ix1 q))).trans ?_
  rw [sum_part (a0 mI c) (a13 mI c) (row t p) q, sum_part (a2 mI c) (a17 mI c) (row t p) q, sum_part (a1 mI c) (a15 mI c) (row t p) q]

/-! ## The input block and the gates, read at an entry of the tile -/

/-- The kernel's input block at row `p`, column `q` of the tile is the specification's at row `256·(t / 16) + p`. -/
theorem inp_val (c : Dev nD) (t : Fin cfg0.N) (h15 : t.val % 16 = 15) (p : Fin 256) (q : Fin 2048) :
    k0_pay4 (outsAt0 mI c t.val t.isLt).2.1 (blk15 mI c t) (blk16 mI c t) (ix2 p q)
      = Cert.Spec.blockInp (a0 mI c) (a1 mI c) (a9 mI c) (a10 mI c) (a11 mI c) (a12 mI c) (row t p) q := by
  rw [Payloads.pay4_apply, blk15_apply mI c t q, blk16_apply mI c t q]
  unfold Cert.Spec.blockInp
  exact congrArg Ideal.logistic (inp_total mI c t h15 p q)

/-- The kernel's input gate at row `p`, column `q` of the tile is the specification's at row `256·(t / 16) + p`. -/
theorem inpgate_val (c : Dev nD) (t : Fin cfg0.N) (h15 : t.val % 16 = 15) (p : Fin 256) (q : Fin 2048) :
    k0_pay5 (outsAt0 mI c t.val t.isLt).2.2.1 (blk12 mI c t) (blk14 mI c t) (blk13 mI c t) (ix2 p q)
      = Cert.Spec.gate (a0 mI c) (a2 mI c) (a1 mI c) (a3 mI c) (a4 mI c) (a7 mI c) (a8 mI c) (a5 mI c) (a6 mI c) (row t p) q := by
  rw [Payloads.pay5_apply, blk12_apply mI c t q, blk14_apply mI c t q, blk13_apply mI c t q]
  unfold Cert.Spec.gate
  exact congrArg Ideal.logistic (inpgate_total mI c t h15 p q)

/-- The kernel's read gate at row `p`, column `q` of the tile is the specification's at row `256·(t / 16) + p`. -/
theorem readgate_val (c : Dev nD) (t : Fin cfg0.N) (h15 : t.val % 16 = 15) (p : Fin 256) (q : Fin 2048) :
    k0_pay6 (outsAt0 mI c t.val t.isLt).2.2.2 (blk17 mI c t) (blk19 mI c t) (blk18 mI c t) (ix2 p q)
      = Cert.Spec.gate (a0 mI c) (a2 mI c) (a1 mI c) (a13 mI c) (a14 mI c) (a17 mI c) (a18 mI c) (a15 mI c) (a16 mI c) (row t p) q := by
  rw [Payloads.pay6_apply, blk17_apply mI c t q, blk19_apply mI c t q, blk18_apply mI c t q]
  unfold Cert.Spec.gate
  exact congrArg Ideal.logistic (readgate_total mI c t h15 p q)

/-! ## The output tile -/

/-- The output tile after the last point `t` of a row tile, at row `p` and column `q`: the returned state at row
    `256·(t / 16) + p`, column `q`. -/
theorem out_last (c : Dev nD) (t : Fin cfg0.N) (h15 : t.val % 16 = 15) (p : Fin 256) (q : Fin 2048) :
    (outsAt0 mI c t.val t.isLt).1 (ix2 p q) = Args.spec mI c (ix2 (row t p) q) := by
  rw [tile_eq mI c t h15, Payloads.pay3_apply, inp_val mI c t h15 p q, inpgate_val mI c t h15 p q,
    blk20_apply mI c t q]
  -- The decoder layer runs over every column `j` of the row: the read gate, the memory tile and the decoder weight
  -- are each read at `j`.
  have hdec : ∑ j : Fin 2048, (k0_pay6 (outsAt0 mI c t.val t.isLt).2.2.2 (blk17 mI c t) (blk19 mI c t) (blk18 mI c t) (ix2 p j)
        * (blk2 mI c t) (ix2 p j)) * (blk11 mI c t) (ix2 q j)
      = ∑ j : Fin 2048, (Cert.Spec.gate (a0 mI c) (a2 mI c) (a1 mI c) (a13 mI c) (a14 mI c) (a17 mI c) (a18 mI c) (a15 mI c) (a16 mI c) (row t p) j
        * (a2 mI c) (ix2 (row t p) j)) * (a19 mI c) (ix2 q j) :=
    Finset.sum_congr rfl fun j _ => by
      rw [readgate_val mI c t h15 p j, blk2_apply mI c t p j, blk11_apply mI c t q j]
  rw [hdec]
  rfl

end Cert.KernelIdeal.Tile

end
-- ==== Proof.KernelFinal.lean ====
/-
  The kernel's result array is the specification's returned state.

  The output window's block at grid point `t` is rows `256·(t / 16) … 256·(t / 16) + 255` of the result, all 2048
  columns, and it is written back exactly at the last point of each row tile, `t % 16 = 15`. What is written back
  there is the specification's state at those rows, and the sixteen row tiles cover the array: row `r` lies in the
  tile written back at point `16·(r / 256) + 15`. So after the run the array holds the specification's state at every
  index, and the arguments are unchanged.
-/
import proofs.«102152_j54262616818001_1_alg».proof.Proof.KernelTile

set_option maxRecDepth 16384

noncomputable section

namespace Cert.KernelIdeal.Final

open Cert.KernelIdeal Cert.KernelIdeal.Gen Cert.KernelIdeal.GenP Cert.KernelIdeal.ValueP
open Cert.KernelIdeal.Args Cert.KernelIdeal.Blocks Cert.KernelIdeal.Slice
open Idealize.ShloMosaic Idealize.ShloMosaic.TcCoe Idealize.SL.Sem Idealize.ShloMosaic.ValueIdx
open Cert.KernelIdeal.Tile

variable (mI : (ℓ : Loc nD τ sig) → Buf (Elt Ideal) ℓ) (ρ : Dev nD → PrngReg)

/-- The output window is written back exactly at the last point of each row tile. -/
theorem flush_iff : ∀ t : Fin cfg0.N, (cfg0.win 21).flush t = true ↔ t.val % 16 = 15 :=
  (by decide +kernel : ∀ t : Fin grid0.N, (cfg0.win 21).flush t = true ↔ t.val % 16 = 15)

/-- The output window's block index at point `t`: its row tile, and column block zero. -/
theorem out_index : ∀ t : Fin cfg0.N, win0_21.index t (0 : Fin 2) = t.val / 16 ∧ win0_21.index t (1 : Fin 2) = 0 :=
  (by decide +kernel : ∀ t : Fin grid0.N, win0_21.index t (0 : Fin 2) = t.val / 16 ∧ win0_21.index t (1 : Fin 2) = 0)

/-- What a writing point writes back is its block of the specification's state. -/
theorem flushed_eq (c : Dev nD) (t : Fin cfg0.N) (hf : (cfg0.win 21).flush t = true) :
    (dats mI 0 c).flushed 21 t = ((cfg0.win 21).blk t).view.read (Elt Ideal) (Args.spec mI c) := by
  have h15 : t.val % 16 = 15 := (flush_iff t).mp hf
  rw [flushed21]
  funext j
  obtain ⟨p, q, rfl⟩ : ∃ (p : Fin 256) (q : Fin 2048), j = ix2 p q := ⟨j 0, j 1, eq_ix2 j⟩
  show (outsAt0 mI c t.val t.isLt).1 (ix2 p q) = Args.spec mI c (((cfg0.win 21).blk t).view.emb (ix2 p q))
  rw [out_last mI c t h15 p q]
  -- entry (p, q) of the block sits in the array at row (block index) · 256 + p and column 0 · 2048 + q
  refine congrArg (Args.spec mI c) (funext fun a => Fin.ext ?_)
  obtain ⟨e0, e1⟩ := out_index t
  match a with
  | ⟨0, _⟩ =>
    show 256 * (t.val / 16) + p.val = win0_21.index t (0 : Fin 2) * 256 + 1 * p.val
    rw [e0]; omega
  | ⟨1, _⟩ =>
    show q.val = win0_21.index t (1 : Fin 2) * 2048 + 1 * q.val
    rw [e1]; omega

/-- Every index of the result lies in the block of some writing point. -/
theorem cover (i : S4096x2048.Idx) :
    ∃ t : Fin cfg0.N, (cfg0.win 21).flush t = true ∧ i ∈ ((cfg0.win 21).blk t).view.set := by
  have hi0 : (i 0).val < 4096 := (i 0).isLt
  have hi1 : (i 1).val < 2048 := (i 1).isLt
  -- the last point of the row tile that holds row `i 0`
  have hN : 16 * ((i 0).val / 256) + 15 < cfg0.N := by rw [show cfg0.N = 256 from N_0]; omega
  refine ⟨⟨16 * ((i 0).val / 256) + 15, hN⟩, (flush_iff _).mpr (by show (16 * ((i 0).val / 256) + 15) % 16 = 15; omega), ?_⟩
  obtain ⟨e0, e1⟩ := out_index ⟨16 * ((i 0).val / 256) + 15, hN⟩
  have e0' : win0_21.index ⟨16 * ((i 0).val / 256) + 15, hN⟩ (0 : Fin 2) = (i 0).val / 256 := by
    rw [e0]; show (16 * ((i 0).val / 256) + 15) / 16 = (i 0).val / 256; omega
  show i ∈ ((View.whole main_v21).slice (win0_21.rect ⟨16 * ((i 0).val / 256) + 15, hN⟩)).set
  rw [View.set_slice_whole, Rect.mem_set_unit]
  intro a
  match a with
  | ⟨0, _⟩ =>
    show win0_21.index ⟨16 * ((i 0).val / 256) + 15, hN⟩ (0 : Fin 2) * 256 ≤ (i 0).val
      ∧ (i 0).val < win0_21.index ⟨16 * ((i 0).val / 256) + 15, hN⟩ (0 : Fin 2) * 256 + 256
    rw [e0']; omega
  | ⟨1, _⟩ =>
    show win0_21.index ⟨16 * ((i 0).val / 256) + 15, hN⟩ (1 : Fin 2) * 2048 ≤ (i 1).val
      ∧ (i 1).val < win0_21.index ⟨16 * ((i 0).val / 256) + 15, hN⟩ (1 : Fin 2) * 2048 + 2048
    rw [e1]; omega

/-- After the run the result array is the specification's state. -/
theorem final (c : Dev nD) : (dats mI 0 c).arrAt 21 cfg0.N = Args.spec mI c :=
  (dats mI 0 c).arrAt_eq_of_cover 21 (Args.spec mI c) (fun t hf => flushed_eq mI c t hf) cover

/-- The idealized kernel's run: it terminates with the result at the specification's state and the arguments kept. -/
theorem run : θ_run defs (onTc (τ := τ) (main (F := Ideal))) ⟨mI, fun _ => 0, ρ⟩ fun r => ∀ c : Dev nD,
      r.2.mem ((c : Thread nD τ).loc main_v21) = Args.spec mI c
      ∧ r.2.mem ((c : Thread nD τ).loc main_arg0) = mI ((c : Thread nD τ).loc main_arg0)
      ∧ r.2.mem ((c : Thread nD τ).loc main_arg1) = mI ((c : Thread nD τ).loc main_arg1)
      ∧ r.2.mem ((c : Thread nD τ).loc main_arg2) = mI ((c : Thread nD τ).loc main_arg2)
      ∧ r.2.mem ((c : Thread nD τ).loc main_arg3) = mI ((c : Thread nD τ).loc main_arg3)
      ∧ r.2.mem ((c : Thread nD τ).loc main_arg4) = mI ((c : Thread nD τ).loc main_arg4)
      ∧ r.2.mem ((c : Thread nD τ).loc main_arg5) = mI ((c : Thread nD τ).loc main_arg5)
      ∧ r.2.mem ((c : Thread nD τ).loc main_arg6) = mI ((c : Thread nD τ).loc main_arg6)
      ∧ r.2.mem ((c : Thread nD τ).loc main_arg7) = mI ((c : Thread nD τ).loc main_arg7)
      ∧ r.2.mem ((c : Thread nD τ).loc main_arg8) = mI ((c : Thread nD τ).loc main_arg8)
      ∧ r.2.mem ((c : Thread nD τ).loc main_arg9) = mI ((c : Thread nD τ).loc main_arg9)
      ∧ r.2.mem ((c : Thread nD τ).loc main_arg10) = mI ((c : Thread nD τ).loc main_arg10)
      ∧ r.2.mem ((c : Thread nD τ).loc main_arg11) = mI ((c : Thread nD τ).loc main_arg11)
      ∧ r.2.mem ((c : Thread nD τ).loc main_arg12) = mI ((c : Thread nD τ).loc main_arg12)
      ∧ r.2.mem ((c : Thread nD τ).loc main_arg13) = mI ((c : Thread nD τ).loc main_arg13)
      ∧ r.2.mem ((c : Thread nD τ).loc main_arg14) = mI ((c : Thread nD τ).loc main_arg14)
      ∧ r.2.mem ((c : Thread nD τ).loc main_arg15) = mI ((c : Thread nD τ).loc main_arg15)
      ∧ r.2.mem ((c : Thread nD τ).loc main_arg16) = mI ((c : Thread nD τ).loc main_arg16)
      ∧ r.2.mem ((c : Thread nD τ).loc main_arg17) = mI ((c : Thread nD τ).loc main_arg17)
      ∧ r.2.mem ((c : Thread nD τ).loc main_arg18) = mI ((c : Thread nD τ).loc main_arg18)
      ∧ r.2.mem ((c : Thread nD τ).loc main_arg19) = mI ((c : Thread nD τ).loc main_arg19)
      ∧ r.2.mem ((c : Thread nD τ).loc main_arg20) = mI ((c : Thread nD τ).loc main_arg20)
      ∧ r.2.mem ((c : Thread nD τ).loc main_arg21) = mI ((c : Thread nD τ).loc main_arg21)
      ∧ r.2.mem ((c : Thread nD τ).loc main_arg22) = mI ((c : Thread nD τ).loc main_arg22)
      ∧ r.2.mem ((c : Thread nD τ).loc main_arg23) = mI ((c : Thread nD τ).loc main_arg23)
      ∧ r.2.mem ((c : Thread nD τ).loc main_arg24) = mI ((c : Thread nD τ).loc main_arg24)
      ∧ r.2.mem ((c : Thread nD τ).loc main_arg25) = mI ((c : Thread nD τ).loc main_arg25)
      ∧ r.2.mem ((c : Thread nD τ).loc main_arg26) = mI ((c : Thread nD τ).loc main_arg26)
      ∧ r.2.mem ((c : Thread nD τ).loc main_arg27) = mI ((c : Thread nD τ).loc main_arg27)
      ∧ r.2.mem ((c : Thread nD τ).loc main_arg28) = mI ((c : Thread nD τ).loc main_arg28) :=
  (θ_run defs _ _).mono (fun r h c => ⟨(h c).1.trans (final mI c), (h c).2⟩) (run_blocks mI ρ)

end Cert.KernelIdeal.Final

end
-- ==== Proof.Sigmoid.lean ====
/-
  The logistic function in the two spellings the programs use, on the extended reals.

  One program applies the logistic function as a single operation; the other writes it out as the quotient
  `1 / (1 + exp (-z))`, with the float literal `1.0` for both ones. On the extended reals the single operation is
  defined to be that quotient, with the conventions `exp ⊥ = 0`, `exp ⊤ = ⊤` and `1 / ⊤ = 0`, so the two agree at
  every argument, the infinities included: no finiteness of `z` is used.
-/
import Idealize.ShloMosaic.PureOps.Ideal.Laws

noncomputable section

namespace Cert.Sigmoid

open Idealize.ShloMosaic

/-- The float literal `1.0` denotes the real number one. -/
theorem one_f32 : FloatOps.ofBits (F := Ideal) .f32 0x3F800000#32 = (1 : Ideal .f32) := by
  show Ideal.ofBits .f32 0x3F800000#32 = 1
  simp [Ideal.ofBits, Ideal.ieee, -EReal.coe_mul]; norm_num

/-- The written-out quotient `1.0 / (1.0 + exp (-z))` is the logistic function of `z`. -/
theorem quotient_eq_logistic (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = FloatOps.logistic z := by
  rw [one_f32]
  rfl

end Cert.Sigmoid

end
-- ==== Proof.RefValue.lean ====
/-
  The plain program's result is the cell's returned state `Cert.Spec.hidden` of its arguments.

  Read one operation at a time, the program transposes each weight matrix and contracts a batch's feature axis
  with the transposed matrix's first axis, which pairs row `p` of the batch with row `q` of the matrix as stored;
  it adds each layer's bias broadcast along the batch; it spells each logistic function as the quotient
  `1 / (1 + exp (-z))`, which is the logistic function at every extended real; and it returns the decoder layer of
  the read-gated memory plus the input block times the input gate. The operations after the returned value
  (the write gate, the encoder, the new memory) do not enter it.
-/
import proofs.«102152_j54262616818001_1_alg».proof.Proof.Gen.ReferenceIdeal.Read
import proofs.«102152_j54262616818001_1_alg».proof.Proof.Spec
import proofs.«102152_j54262616818001_1_alg».proof.Proof.Sigmoid

noncomputable section

namespace Cert.RefValue

open Cert.ReferenceIdeal Cert.ReferenceIdeal.Read Idealize.ShloMosaic Idealize.ShloMosaic.ValueIdx

section Parts

variable (X x0 x1 x2 : (⟨S4096x2048, .f32⟩ : BufTy).Contents (Elt Ideal))
  (W x3 x5 x7 x9 x11 x13 x15 x17 x19 : (⟨S2048x2048, .f32⟩ : BufTy).Contents (Elt Ideal))
  (b x4 x6 x8 x10 x12 x14 x16 x18 x20 : (⟨S2048, .f32⟩ : BufTy).Contents (Elt Ideal))
  (p : Fin 4096) (q : Fin 2048)

/-! ### One layer

A layer contracts the batch's second axis with the first axis of the transposed weight matrix. At the output index
`(p, q)` the batch is read at `(p, k)` and the transposed matrix at `(k, q)`, which is the matrix as stored at `(q, k)`:
row `p` of the batch against row `q` of the matrix. The bias is broadcast to one row and then along the batch, so at
`(p, q)` it is read at `q`. -/

/-- Row `p` of a batch against a transposed weight matrix, read at the contraction's indices, is `Cert.Spec.lin`:
    the transpose's index map undoes the contraction's swap of the matrix's two axes. -/
theorem sum_rows :
    ∑ k : Fin 2048, X (lidx_main_v1 (ix2 p q) k) * W (idx_main_v0 (ridx_main_v1 (ix2 p q) k))
      = Cert.Spec.lin X W p q := by
  unfold Cert.Spec.lin
  refine Finset.sum_congr rfl fun k _ => ?_
  have hl : lidx_main_v1 (ix2 p q) k = ix2 p k :=
    funext fun a => Fin.ext (by match a with | ⟨0, _⟩ => rfl | ⟨1, _⟩ => rfl)
  have hr : idx_main_v0 (ridx_main_v1 (ix2 p q) k) = ix2 q k :=
    funext fun a => Fin.ext (by match a with | ⟨0, _⟩ => rfl | ⟨1, _⟩ => rfl)
  rw [hl, hr]

/-- The two broadcasts of a bias compose to the read at the output feature. -/
theorem bias_index : idx_main_v2 (idx_main_v3 (ix2 p q)) = ix1 q :=
  funext fun a => match a with | ⟨0, _⟩ => rfl

/-- A layer with its bias, at `(p, q)`: row `p` of the batch against row `q` of the weights, plus the bias at `q`. -/
theorem layer_eq : val_main_v4 (F := Ideal) X W b (ix2 p q) = Cert.Spec.lin X W p q + b (ix1 q) := by
  rw [val_main_v4_apply, val_main_v1_apply, val_main_v3_apply, val_main_v2_apply, bias_index, Ideal.addf_def]
  simp only [val_main_v0_apply]
  rw [sum_rows X W p q]

/-! ### The nine layers

The program writes out each of its nine layers anew, but as a function of its batch, its weight matrix and its bias
every one of them is the same function (the same transpose, contraction, two broadcasts and sum), so `layer_eq`
speaks of all nine. The decoder's batch is the read-gated memory, itself a value of the program. -/

theorem v9_eq : val_main_v9 (F := Ideal) x1 x11 x12 (ix2 p q) = Cert.Spec.lin x1 x11 p q + x12 (ix1 q) :=
  layer_eq x1 x11 x12 p q

theorem v21_eq : val_main_v21 (F := Ideal) x0 x3 x4 (ix2 p q) = Cert.Spec.lin x0 x3 p q + x4 (ix1 q) :=
  layer_eq x0 x3 x4 p q

theorem v26_eq : val_main_v26 (F := Ideal) x2 x7 x8 (ix2 p q) = Cert.Spec.lin x2 x7 p q + x8 (ix1 q) :=
  layer_eq x2 x7 x8 p q

theorem v32_eq : val_main_v32 (F := Ideal) x1 x5 x6 (ix2 p q) = Cert.Spec.lin x1 x5 p q + x6 (ix1 q) :=
  layer_eq x1 x5 x6 p q

theorem v44_eq : val_main_v44 (F := Ideal) x0 x13 x14 (ix2 p q) = Cert.Spec.lin x0 x13 p q + x14 (ix1 q) :=
  layer_eq x0 x13 x14 p q

theorem v49_eq : val_main_v49 (F := Ideal) x2 x17 x18 (ix2 p q) = Cert.Spec.lin x2 x17 p q + x18 (ix1 q) :=
  layer_eq x2 x17 x18 p q

theorem v55_eq : val_main_v55 (F := Ideal) x1 x15 x16 (ix2 p q) = Cert.Spec.lin x1 x15 p q + x16 (ix1 q) :=
  layer_eq x1 x15 x16 p q

theorem v68_eq :
    val_main_v68 (F := Ideal) x0 x1 x2 x13 x14 x15 x16 x17 x18 x19 x20 (ix2 p q)
      = Cert.Spec.lin (val_main_v63 (F := Ideal) x0 x1 x2 x13 x14 x15 x16 x17 x18) x19 p q + x20 (ix1 q) :=
  layer_eq (val_main_v63 (F := Ideal) x0 x1 x2 x13 x14 x15 x16 x17 x18) x19 x20 p q

/-! ### The input block and the two gates

Each is the quotient `1 / (1 + exp (-z))`, with `z` a sum of layers grouped as `Cert.Spec` groups them; the quotient
is the logistic function of `z` at every extended real. -/

/-- The input block: the input's layer plus the recurrent output's layer, through the logistic function. -/
theorem blockInp_eq :
    val_main_v16 (F := Ideal) x0 x1 x9 x10 x11 x12 (ix2 p q) = Cert.Spec.blockInp x0 x1 x9 x10 x11 x12 p q := by
  rw [val_main_v16_apply, val_main_v15_apply, val_main_cst_0_apply, val_main_v14_apply, val_main_v13_apply,
    val_main_cst_apply, val_main_v12_apply, val_main_v11_apply, Cert.Sigmoid.quotient_eq_logistic,
    Ideal.logistic_def, val_main_v10_apply, layer_eq, v9_eq, Ideal.addf_def]
  rfl

/-- The input gate: the input's, the memory's and the recurrent output's layers, through the logistic function. -/
theorem inpGate_eq :
    val_main_v39 (F := Ideal) x0 x1 x2 x3 x4 x5 x6 x7 x8 (ix2 p q)
      = Cert.Spec.gate x0 x2 x1 x3 x4 x7 x8 x5 x6 p q := by
  rw [val_main_v39_apply, val_main_v38_apply, val_main_cst_2_apply, val_main_v37_apply, val_main_v36_apply,
    val_main_cst_1_apply, val_main_v35_apply, val_main_v34_apply, Cert.Sigmoid.quotient_eq_logistic,
    Ideal.logistic_def, val_main_v33_apply, val_main_v27_apply, v21_eq, v26_eq, v32_eq]
  simp only [Ideal.addf_def]
  rfl

/-- The read gate: the same three layers with the read gate's weights. -/
theorem readGate_eq :
    val_main_v62 (F := Ideal) x0 x1 x2 x13 x14 x15 x16 x17 x18 (ix2 p q)
      = Cert.Spec.gate x0 x2 x1 x13 x14 x17 x18 x15 x16 p q := by
  rw [val_main_v62_apply, val_main_v61_apply, val_main_cst_4_apply, val_main_v60_apply, val_main_v59_apply,
    val_main_cst_3_apply, val_main_v58_apply, val_main_v57_apply, Cert.Sigmoid.quotient_eq_logistic,
    Ideal.logistic_def, val_main_v56_apply, val_main_v50_apply, v44_eq, v49_eq, v55_eq]
  simp only [Ideal.addf_def]
  rfl

/-- The decoder layer of the read-gated memory: feature `j` of row `p` of its batch is the read gate at `(p, j)` times
    the memory at `(p, j)`. -/
theorem decoder_eq :
    val_main_v68 (F := Ideal) x0 x1 x2 x13 x14 x15 x16 x17 x18 x19 x20 (ix2 p q)
      = (∑ j : Fin 2048, (Cert.Spec.gate x0 x2 x1 x13 x14 x17 x18 x15 x16 p j * x2 (ix2 p j)) * x19 (ix2 q j))
          + x20 (ix1 q) := by
  rw [v68_eq]
  unfold Cert.Spec.lin
  refine congrArg (· + x20 (ix1 q)) (Finset.sum_congr rfl fun j _ => ?_)
  rw [val_main_v63_apply, Ideal.mulf_def, readGate_eq]

end Parts

/-- The value the plain program returns is the specification's, index by index: the decoder layer of the read-gated
    memory plus the input block times the input gate. -/
theorem ref_eq_hidden (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) :
    val_main_v70 (F := Ideal) x0 x1 x2 x3 x4 x5 x6 x7 x8 x9 x10 x11 x12 x13 x14 x15 x16 x17 x18 x19 x20 = Cert.Spec.hidden x0 x1 x2 x3 x4 x5 x6 x7 x8 x9 x10 x11 x12 x13 x14 x15 x16 x17 x18 x19 x20 := by
  funext i
  obtain ⟨p, q, rfl⟩ : ∃ (p : Fin 4096) (q : Fin 2048), i = ix2 p q := ⟨i 0, i 1, eq_ix2 i⟩
  rw [val_main_v70_apply, val_main_v69_apply, Ideal.addf_def, Ideal.mulf_def, decoder_eq, blockInp_eq, inpGate_eq]
  rfl

end Cert.RefValue

end
-- ==== Proof.lean ====
/-
  The recurrent memory-gated cell: the Pallas kernel against the plain program.

  Both programs return, for a batch of 4096 examples of 2048 features, the state

      hidden = decoder (read_gate · mem0) + block_inp · inp_gate,

  where block_inp, inp_gate and read_gate are logistic functions of sums of linear layers of the input, the
  recurrent output state and the memory state (`Cert.Spec.hidden`). The plain program computes every layer as one
  product over all 2048 input features and spells the logistic function as the quotient 1 / (1 + exp (-z)). The
  kernel walks a grid of 16 row tiles by 16 blocks of 128 input features: at each point it adds that block's
  partial products into three accumulators kept across the points of a row tile (reset at the first point), and at
  the last point of the row tile it adds the biases, applies the logistic function as one operation, multiplies by
  the memory tile, applies the decoder layer and stores the output tile.

  On the extended reals the two are one function of the arguments. The logistic operation IS the quotient
  1 / (1 + exp (-z)) at every argument, the infinities included. A layer's product over 2048 features is the sum of
  its sixteen partial products over consecutive blocks of 128, and the kernel's grouping (all partial products
  first, biases last) equals the plain program's (each layer plus its own bias, then the layers added), because
  addition on the extended reals is commutative and associative; no cancellation or distributivity is used, so the
  finiteness of the inputs is never needed. Changes of float format are the identity there.

  The three frame claims are the programs' runs with the results dropped; the idealization rewrote nothing, so
  `preserves` is trivial; and `algebraic` sets the kernel's run (result array = `Cert.Spec.hidden` of the
  arguments, `Cert.KernelIdeal.Final.run`) beside the plain program's (`Cert.RefValue.ref_eq_hidden`).
-/
import proofs.«102152_j54262616818001_1_alg».proof.Defs
import proofs.«102152_j54262616818001_1_alg».proof.Proof.Gen.Kernel
import proofs.«102152_j54262616818001_1_alg».proof.Proof.Gen.KernelIdeal
import proofs.«102152_j54262616818001_1_alg».proof.Proof.Gen.ReferenceIdeal
import proofs.«102152_j54262616818001_1_alg».proof.Proof.Gen.Pre_finite_inputs
import proofs.«102152_j54262616818001_1_alg».proof.Proof.KernelFrame
import proofs.«102152_j54262616818001_1_alg».proof.Proof.KernelFinal
import proofs.«102152_j54262616818001_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The plain program is a sequence of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array at `Cert.Spec.hidden` of the
    kernel's arguments: the kernel by its run, the plain program by its value read one operation at a time, with
    its arguments rewritten to the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Args.spec m c, Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10, h11, h12, h13, h14, h15, h16, h17, h18, h19, h20, -⟩ := hagree c
  rw [(h c).1, Cert.ReferenceIdeal.Read.val_main_v70_eq, Cert.RefValue.ref_eq_hidden,
    h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
